-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3072 : Shape := ⟨3, ![8, 1024, 3072]⟩
abbrev S8x1024x64 : Shape := ⟨3, ![8, 1024, 64]⟩
abbrev S1024x3072 : Shape := ⟨2, ![1024, 3072]⟩
abbrev S1024 : Shape := ⟨1, ![1024]⟩
abbrev S_ : Shape := ⟨0, ![]⟩

class Facts : Prop where
  bcast_S_S8x1024x3072 : S_.BroadcastsInDim S8x1024x3072 (![] : Fin 0 → Fin S8x1024x3072.rank)
  reducesTo_S8x1024x3072_S_d0_1_2 : S8x1024x3072.ReducesTo [0, 1, 2] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x3072 .f32) (main_arg1 : FVec F S8x1024x64 .f32) (main_arg2 : FVec F S8x1024x64 .f32) (main_arg3 : FVec F S1024x3072 .f32) (main_arg4 : FVec F S1024 .f32) : IVec S_ 1 :=
  let main_v0 : FVec F S8x1024x3072 .f32 := Host.absf main_arg0
  let main_cst : FVec F S_ .f32 := constant S_ .f32 0x7F800000#32
  let main_v1 : FVec F S8x1024x3072 .f32 := broadcastInDim S8x1024x3072 ![] bcast_S_S8x1024x3072 main_cst
  let main_v2 : IVec S8x1024x3072 1 := cmpf .olt main_v0 main_v1
  let main_c : IVec S_ 1 := constantI S_ 1 1#1
  let main_v3 : IVec S_ 1 := (fun x v => Host.reduce IntOp.andi x v reducesTo_S8x1024x3072_S_d0_1_2 h_S_) main_v2 main_c
  let main_v4 : FVec F S8x1024x64 .f32 := Host.absf main_arg1
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S8x1024x64 .f32 := Host.absf main_arg2
  let main_cst_2 : FVec F S_ .f32 := constant S_ .f32 0x7F800000#32
  let main_v10 : FVec F S8x1024x64 .f32 := broadcastInDim S8x1024x64 ![] bcast_S_S8x1024x64 main_cst_2
  let main_v11 : IVec S8x1024x64 1 := cmpf .olt main_v9 main_v10
  let main_c_3 : IVec S_ 1 := constantI S_ 1 1#1
  let main_v12 : IVec S_ 1 := (fun x v => Host.reduce IntOp.andi x v reducesTo_S8x1024x64_S_d0_1_2 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_v13 main_v16
-- ==== Kernel.lean ====
abbrev S8x1024x3072 : Shape := ⟨3, ![8, 1024, 3072]⟩
abbrev S8x1024x64 : Shape := ⟨3, ![8, 1024, 64]⟩
abbrev S1024x3072 : Shape := ⟨2, ![1024, 3072]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1x1024x64 : Shape := ⟨3, ![1, 1024, 64]⟩
abbrev S1024x1 : Shape := ⟨2, ![1024, 1]⟩
abbrev S1024x64 : Shape := ⟨2, ![1024, 64]⟩
abbrev S1 : Shape := ⟨1, ![1]⟩
abbrev S1x1 : Shape := ⟨2, ![1, 1]⟩
abbrev S64 : Shape := ⟨1, ![64]⟩
abbrev S1x64 : Shape := ⟨2, ![1, 64]⟩

abbrev nBuf : Space → Nat
  | .hbm => 8
  | .vmem => 12
  | .smem => 0
  | _ => 0

abbrev bufTy : (tb : Table) → Fin (tcTables nBuf tb) → BufTy
  | .hbm, ⟨0, _⟩ => ⟨S8x1024x3072, .f32⟩
  | .hbm, ⟨1, _⟩ => ⟨S8x1024x64, .f32⟩
  | .hbm, ⟨2, _⟩ => ⟨S8x1024x64, .f32⟩
  | .hbm, ⟨3, _⟩ => ⟨S1024x3072, .f32⟩
  | .hbm, ⟨4, _⟩ => ⟨S1024, .f32⟩
  | .hbm, ⟨5, _⟩ => ⟨S1024x3072, .bf16⟩
  | .hbm, ⟨6, _⟩ => ⟨S1x1024, .f32⟩
  | .hbm, ⟨7, _⟩ => ⟨S8x1024x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x1024x64, .f32⟩
  | .local _ .vmem, ⟨11, _⟩ => ⟨S1024x1024, .f32⟩
  | _, _ => ⟨S8x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  transposes_S1024x1024_p1_0_S1024x1024 : S1024x1024.Transposes [1, 0] S1024x1024
  iota_S1024x1_d0_w32 : S1024x1.Iotas .tc 32 [0]
  iota_S1x1024_d1_w32 : S1x1024.Iotas .tc 32 [1]
  broadcasts_S1024x1_S1024x1024 : S1024x1.Broadcasts S1024x1024
  reduces_S1024x1024_S1024 : S1024x1024.Reduces [1] S1024
  shapeCasts_S1024_S1024x1 : S1024.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x64_S1024 : S1024x64.Reduces [1] S1024
  natLt_1_32 : 1 < 32
  reduces_S1024x1_S1 : S1024x1.Reduces [0] S1
  shapeCasts_S1_S1x1 : S1.ShapeCasts S1x1
  reduces_S1024x64_S64 : S1024x64.Reduces [0] S64
  shapeCasts_S64_S1x64 : S64.ShapeCasts S1x64
  broadcasts_S1x1_S1x64 : S1x1.Broadcasts S1x64
  broadcasts_S1x64_S1024x64 : S1x64.Broadcasts S1024x64
  broadcasts_S1024x1_S1024x64 : S1024x1.Broadcasts S1024x64
  shapeCasts_S1024x64_S1x1024x64 : S1024x64.ShapeCasts S1x1024x64
  dot_S1024x1024_S1024x1024_S1024x1024_1_1_0_0_n_n_wf : DotDims.WF S1024x1024 S1024x1024 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x3072.size a
  hwx0_0 : ∀ i : grid0.Coords, EltTy.bits .f32 = 32 ∨ (Rect.block (s := S8x1024x3072) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x1024x64.size a
  hwx0_3 : ∀ i : grid0.Coords, EltTy.bits .f32 = 32 ∨ (Rect.block (s := S8x1024x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S8x1024x64.size a
  hwx0_4 : ∀ i : grid0.Coords, EltTy.bits .f32 = 32 ∨ (Rect.block (s := S8x1024x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S8x1024x64.size a
  hwx0_5 : ∀ i : grid0.Coords, EltTy.bits .f32 = 32 ∨ (Rect.block (s := S8x1024x64) S1x1024x64.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x1024x3072 : Shape := ⟨3, ![8, 1024, 3072]⟩
abbrev S8x1024x64 : Shape := ⟨3, ![8, 1024, 64]⟩
abbrev S1024x3072 : Shape := ⟨2, ![1024, 3072]⟩
abbrev S1024 : Shape := ⟨1, ![1024]⟩
abbrev S8x1024x1024 : Shape := ⟨3, ![8, 1024, 1024]⟩
abbrev S1x1x1024 : Shape := ⟨3, ![1, 1, 1024]⟩
abbrev S1024x1024 : Shape := ⟨2, ![1024, 1024]⟩
abbrev S_ : Shape := ⟨0, ![]⟩
abbrev S1x1024x1024 : Shape := ⟨3, ![1, 1024, 1024]⟩
abbrev S8x1024 : Shape := ⟨2, ![8, 1024]⟩
abbrev S8x1024x1 : Shape := ⟨3, ![8, 1024, 1]⟩
abbrev S8 : Shape := ⟨1, ![8]⟩
abbrev S8x1 : Shape := ⟨2, ![8, 1]⟩
abbrev S8x64 : Shape := ⟨2, ![8, 64]⟩
abbrev S8x1x64 : Shape := ⟨3, ![8, 1, 64]⟩

abbrev nBuf : Space → Nat
  | .hbm => 86
  | .vmem => 0
  | .smem => 0
  | _ => 0

abbrev bufTy : (tb : Table) → Fin (tcTables nBuf tb) → BufTy
  | .hbm, ⟨0, _⟩ => ⟨S8x1024x3072, .f32⟩
  | .hbm, ⟨1, _⟩ => ⟨S8x1024x64, .f32⟩
  | .hbm, ⟨2, _⟩ => ⟨S8x1024x64, .f32⟩
  | .hbm, ⟨3, _⟩ => ⟨S1024x3072, .f32⟩
  | .hbm, ⟨4, _⟩ => ⟨S1024, .f32⟩
  | .hbm, ⟨5, _⟩ => ⟨S8x1024x1024, .f32⟩
  | .hbm, ⟨6, _⟩ => ⟨S1x1x1024, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S1024x1024, .i32⟩
  | .hbm, ⟨11, _⟩ => ⟨S1024x1024, .i32⟩
  | .hbm, ⟨12, _⟩ => ⟨S_, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1x1024x1024, .f32⟩
  | .hbm, ⟨21, _⟩ => ⟨S8x1024x1024, .f32⟩
  | .hbm, ⟨22, _⟩ => ⟨S8x1024x1024, .f32⟩
  | .hbm, ⟨23, _⟩ => ⟨S_, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024x1, .f32⟩
  | .hbm, ⟨29, _⟩ => ⟨S8x1024x1024, .f32⟩
  | .hbm, ⟨30, _⟩ => ⟨S8x1024x1024, .f32⟩
  | .hbm, ⟨31, _⟩ => ⟨S8x1024x1024, .f32⟩
  | .hbm, ⟨32, _⟩ => ⟨S_, .f32⟩
  | .hbm, ⟨33, _⟩ => ⟨S8x1024, .f32⟩
  | .hbm, ⟨34, _⟩ => ⟨S8x1024x1, .f32⟩
  | .hbm, ⟨35, _⟩ => ⟨S8x1024x1024, .f32⟩
  | .hbm, ⟨36, _⟩ => ⟨S8x1024x1024, .f32⟩
  | .hbm, ⟨37, _⟩ => ⟨S_, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .i1⟩
  | .hbm, ⟨42, _⟩ => ⟨S8x1024, .f32⟩
  | .hbm, ⟨43, _⟩ => ⟨S_, .f32⟩
  | .hbm, ⟨44, _⟩ => ⟨S8, .f32⟩
  | .hbm, ⟨45, _⟩ => ⟨S8x1, .f32⟩
  | .hbm, ⟨46, _⟩ => ⟨S_, .f32⟩
  | .hbm, ⟨47, _⟩ => ⟨S8x64, .f32⟩
  | .hbm, ⟨48, _⟩ => ⟨S8x64, .f32⟩
  | .hbm, ⟨49, _⟩ => ⟨S8x64, .f32⟩
  | .hbm, ⟨50, _⟩ => ⟨S8x1x64, .f32⟩
  | .hbm, ⟨51, _⟩ => ⟨S8x1024x64, .f32⟩
  | .hbm, ⟨52, _⟩ => ⟨S8x1024x64, .f32⟩
  | .hbm, ⟨53, _⟩ => ⟨S8x1024x1, .f32⟩
  | .hbm, ⟨54, _⟩ => ⟨S8x1024x64, .f32⟩
  | .hbm, ⟨55, _⟩ => ⟨S8x1024x64, .f32⟩
  | .hbm, ⟨56, _⟩ => ⟨S_, .f32⟩
  | .hbm, ⟨57, _⟩ => ⟨S8x1024, .f32⟩
  | .hbm, ⟨58, _⟩ => ⟨S_, .f32⟩
  | .hbm, ⟨59, _⟩ => ⟨S8x1024, .f32⟩
  | .hbm, ⟨60, _⟩ => ⟨S8x1024, .f32⟩
  | .hbm, ⟨61, _⟩ => ⟨S_, .f32⟩
  | .hbm, ⟨62, _⟩ => ⟨S8x1024, .f32⟩
  | .hbm, ⟨63, _⟩ => ⟨S8x1024, .f32⟩
  | .hbm, ⟨64, _⟩ => ⟨S8x1024x1, .f32⟩
  | .hbm, ⟨65, _⟩ => ⟨S8x1024x1024, .f32⟩
  | .hbm, ⟨66, _⟩ => ⟨S8x1024x1024, .f32⟩
  | .hbm, ⟨67, _⟩ => ⟨S8x1024x1024, .f32⟩
  | .hbm, ⟨68, _⟩ => ⟨S8x1024x1, .f32⟩
  | .hbm, ⟨69, _⟩ => ⟨S8x1024x64, .f32⟩
  | .hbm, ⟨70, _⟩ => ⟨S8x1024x64, .f32⟩
  | .hbm, ⟨71, _⟩ => ⟨S_, .f32⟩
  | .hbm, ⟨72, _⟩ => ⟨S8x1024x64, .f32⟩
  | .hbm, ⟨73, _⟩ => ⟨S8x1024x64, .f32⟩
  | .hbm, ⟨74, _⟩ => ⟨S8x1024x64, .f32⟩
  | .hbm, ⟨75, _⟩ => ⟨S8x1024x64, .f32⟩
  | .hbm, ⟨76, _⟩ => ⟨S8x1024x64, .f32⟩
  | .hbm, ⟨77, _⟩ => ⟨S8x1024x64, .f32⟩
  | .hbm, ⟨78, _⟩ => ⟨S8x1024x64, .f32⟩
  | .hbm, ⟨79, _⟩ => ⟨S8x1024x64, .f32⟩
  | .hbm, ⟨80, _⟩ => ⟨S8x1024x64, .f32⟩
  | .hbm, ⟨81, _⟩ => ⟨S8x1024x64, .f32⟩
  | .hbm, ⟨82, _⟩ => ⟨S8x1024x64, .f32⟩
  | .hbm, ⟨83, _⟩ => ⟨S8x1024x64, .f32⟩
  | .hbm, ⟨84, _⟩ => ⟨S8x1024x64, .f32⟩
  | .hbm, ⟨85, _⟩ => ⟨S8x1024x64, .f32⟩
  | _, _ => ⟨S8x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  reducesTo_S8x1024x64_S8x1024_d2 : S8x1024x64.ReducesTo [2] S8x1024
  reducesTo_S8x1024_S8_d1 : S8x1024.ReducesTo [1] S8
  bcast_S8_S8x1_0 : S8.BroadcastsInDim S8x1 (![0] : Fin 1 → Fin S8x1.rank)
  reducesTo_S8x1024x64_S8x64_d1 : S8x1024x64.ReducesTo [1] S8x64
  bcast_S8x1_S8x64_0_1 : S8x1.BroadcastsInDim S8x64 (![0, 1] : Fin 2 → Fin S8x64.rank)
  bcast_S8x64_S8x1x64_0_2 : S8x64.BroadcastsInDim S8x1x64 (![0, 2] : Fin 2 → Fin S8x1x64.rank)
  bcast_S8x1x64_S8x1024x64_0_1_2 : S8x1x64.BroadcastsInDim S8x1024x64 (![0, 1, 2] : Fin 3 → Fin S8x1024x64.rank)
  bcast_S8x1024x1_S8x1024x64_0_1_2 : S8x1024x1.BroadcastsInDim S8x1024x64 (![0, 1, 2] : Fin 3 → Fin S8x1024x64.rank)
  transposes_S8x1024x1024_S8x1024x1024_0_2_1 : S8x1024x1024.Transposes [0, 2, 1] S8x1024x1024
  bcast_S_S8x1024x64 : S_.BroadcastsInDim S8x1024x64 (![] : Fin 0 → Fin S8x1024x64.rank)
  dot_S8x1024x3072_S1024x3072_S8x1024x1024_2_1_01_0_n_n_wf : DotDims.WF S8x1024x3072 S1024x3072 S8x1024x1024 [2] [1] [0, 1] [0] [] []
  dot_S8x1024x1024_S8x1024x1024_S8x1024x1024_2_2_1_1_0_0_wf : DotDims.WF S8x1024x1024 S8x1024x1024 S8x1024x1024 [2] [2] [1] [1] [0] [0]
  dot_S8x1024x1024_S8x1024x64_S8x1024x64_2_1_1_2_0_0_wf : DotDims.WF S8x1024x1024 S8x1024x64 S8x1024x64 [2] [1] [1] [2] [0] [0]

variable [Facts₀]

def dot_S8x1024x3072_S1024x3072_S8x1024x1024_2_1_01_0_n_n : DotDims S8x1024x3072 S1024x3072 S8x1024x1024 where
  lhsContracting := [2]
  rhsContracting := [1]
  lhsNonContracting := [0, 1]
  rhsNonContracting := [0]
  lhsBatch := []
  rhsBatch := []
  wf := dot_S8x1024x3072_S1024x3072_S8x1024x1024_2_1_01_0_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x64_S8x1024x64_2_1_1_2_0_0 : DotDims S8x1024x1024 S8x1024x64 S8x1024x64 where
  lhsContracting := [2]
  rhsContracting := [1]
  lhsNonContracting := [1]
  rhsNonContracting := [2]
  lhsBatch := [0]
  rhsBatch := [0]
  wf := dot_S8x1024x1024_S8x1024x64_S8x1024x64_2_1_1_2_0_0_wf

class Facts : Prop extends Facts₀ where

variable [Facts]
-- ==== Proof.Spec.lean ====
/-
  Label spreading over a softmax similarity graph, one batch at a time, on the extended reals.

  From a batch of samples `X` (1024 rows of 3072 features), a projection `W` (1024 × 3072) with bias `β`,
  soft labels `Lab` and a residual `Pred` (1024 × 64 each):
    s      = X Wᵀ + β                                  (1024 × 1024)
    g      = s sᵀ with 1e5 taken off the diagonal
    e      = exp (g − rowmax g),   r = row sums of e
    A      = e / r  (row softmax),   d = 1 / (row sums of A + 1e-10)
    B₀     = (Lab − column means over the rows whose label mass exceeds ½) on those rows, 0 elsewhere
    u ↦ d · (Aᵀ u) + d · B₀, six times from 0, `Pred` added after the third.
  Two arrangements of the same arithmetic are stated: `refOut` divides by `r`, sums the normalised rows again
  and multiplies the scaled transpose `d · Aᵀ` into `u`; `kerOut` accumulates the projection over three
  chunks of 1024 features, forms `s sᵀ` as `s sᵀ + s (s − s)ᵀ + (s (s − s)ᵀ)ᵀ`, multiplies by the reciprocal `1 / r`,
  takes the degree as `r · (1 / r)`, starts from the first iterate `d · B₀` and scales `Aᵀ u` by `d` afterwards.
-/
import Idealize.ShloMosaic.PureOps.Ideal

noncomputable section

namespace Cert.LabelSpread

open Idealize.ShloMosaic

/-- The float words both programs carry: 1e5, −∞, ½, 1e-10 and 1. -/
def big : EReal := Ideal.ofBits .f32 0x47C35000#32
def floorV : EReal := Ideal.ofBits .f32 0xFF800000#32
def half : EReal := Ideal.ofBits .f32 0x3F000000#32
def tiny : EReal := Ideal.ofBits .f32 0x2EDBE6FF#32
def unit : EReal := Ideal.ofBits .f32 0x3F800000#32

/-! ## The shared pieces -/

/-- The projection `X Wᵀ + β`. -/
def proj (X W : Fin 1024 → Fin 3072 → EReal) (β : Fin 1024 → EReal) : Fin 1024 → Fin 1024 → EReal :=
  fun l h => (∑ k : Fin 3072, X l k * W h k) + β h

/-- The Gram matrix `s sᵀ`. -/
def gram (s : Fin 1024 → Fin 1024 → EReal) : Fin 1024 → Fin 1024 → EReal :=
  fun l m => ∑ h : Fin 1024, s l h * s m h

/-- 1e5 taken off the diagonal. -/
def masked (g : Fin 1024 → Fin 1024 → EReal) : Fin 1024 → Fin 1024 → EReal :=
  fun l m => if l = m then g l m - big else g l m

/-- A row's maximum, folded from −∞. -/
def rowmax (g : Fin 1024 → Fin 1024 → EReal) : Fin 1024 → EReal :=
  fun l => (Finset.univ : Finset (Fin 1024)).fold max floorV (g l)

/-- The shifted exponentials of a row and their sum. -/
def expo (g : Fin 1024 → Fin 1024 → EReal) : Fin 1024 → Fin 1024 → EReal :=
  fun l m => Ideal.exp (g l m - rowmax g l)
def rowsum (e : Fin 1024 → Fin 1024 → EReal) : Fin 1024 → EReal :=
  fun l => ∑ m : Fin 1024, e l m

/-- 1 on the rows whose label mass exceeds ½, 0 on the others. -/
def rowHas (Lab : Fin 1024 → Fin 64 → EReal) : Fin 1024 → EReal :=
  fun l => if half < ∑ n : Fin 64, Lab l n then 1 else 0

/-- The labels centred by the column sums over the number of marked rows, kept on the marked rows only. -/
def centred (Lab : Fin 1024 → Fin 64 → EReal) : Fin 1024 → Fin 64 → EReal :=
  fun l n => (Lab l n - Ideal.div (∑ l' : Fin 1024, Lab l' n) (∑ l' : Fin 1024, rowHas Lab l')) * rowHas Lab l

/-! ## The reference's arrangement -/

/-- Row softmax by division, the degree from the normalised rows summed again. -/
def attnR (g : Fin 1024 → Fin 1024 → EReal) : Fin 1024 → Fin 1024 → EReal :=
  fun l m => Ideal.div (expo g l m) (rowsum (expo g) l)
def degR (g : Fin 1024 → Fin 1024 → EReal) : Fin 1024 → EReal :=
  fun l => Ideal.div unit ((∑ m : Fin 1024, attnR g l m) + tiny)

/-- One propagation step with the scaled transpose `d · Aᵀ` formed first. -/
def stepR (d : Fin 1024 → EReal) (A : Fin 1024 → Fin 1024 → EReal) (Db u : Fin 1024 → Fin 64 → EReal) :
    Fin 1024 → Fin 64 → EReal :=
  fun l n => (∑ m : Fin 1024, (d l * A m l) * u m n) + Db l n

/-- Six steps from 0, the residual added after the third. -/
def iterR (d : Fin 1024 → EReal) (A : Fin 1024 → Fin 1024 → EReal) (Db Pred : Fin 1024 → Fin 64 → EReal) :
    Fin 1024 → Fin 64 → EReal :=
  stepR d A Db (stepR d A Db (stepR d A Db
    (fun l n => stepR d A Db (stepR d A Db (stepR d A Db (fun _ _ => 0))) l n + Pred l n)))

def refOut (X W : Fin 1024 → Fin 3072 → EReal) (β : Fin 1024 → EReal) (Lab Pred : Fin 1024 → Fin 64 → EReal) :
    Fin 1024 → Fin 64 → EReal :=
  iterR (degR (masked (gram (proj X W β)))) (attnR (masked (gram (proj X W β))))
    (fun l n => degR (masked (gram (proj X W β))) l * centred Lab l n) Pred

/-! ## The kernel's arrangement -/

/-- Feature `k` of chunk `c`. -/
def feat (c : Fin 3) (k : Fin 1024) : Fin 3072 := ⟨c.val * 1024 + k.val, by omega⟩

/-- One chunk's share of `X Wᵀ`, and the three accumulated from 0 in order. -/
def chunk (X W : Fin 1024 → Fin 3072 → EReal) (c : Fin 3) : Fin 1024 → Fin 1024 → EReal :=
  fun l h => ∑ k : Fin 1024, X l (feat c k) * W h (feat c k)
def chunkAcc (X W : Fin 1024 → Fin 3072 → EReal) : Fin 1024 → Fin 1024 → EReal :=
  fun l h => ((0 + chunk X W 0 l h) + chunk X W 1 l h) + chunk X W 2 l h

/-- `s sᵀ` with the two cross terms against `s − s`. -/
def gramSplit (s : Fin 1024 → Fin 1024 → EReal) : Fin 1024 → Fin 1024 → EReal :=
  fun l m => (gram s l m + ∑ h : Fin 1024, s l h * (s m h - s m h)) + ∑ h : Fin 1024, s m h * (s l h - s l h)

/-- Row softmax by the reciprocal of the row sum, the degree from `r · (1 / r)`. -/
def invK (g : Fin 1024 → Fin 1024 → EReal) : Fin 1024 → EReal :=
  fun l => Ideal.div unit (rowsum (expo g) l)
def attnK (g : Fin 1024 → Fin 1024 → EReal) : Fin 1024 → Fin 1024 → EReal :=
  fun l m => expo g l m * invK g l
def degK (g : Fin 1024 → Fin 1024 → EReal) : Fin 1024 → EReal :=
  fun l => Ideal.div unit (rowsum (expo g) l * invK g l + tiny)

/-- One propagation step with `Aᵀ u` formed first and scaled by `d` afterwards. -/
def stepK (d : Fin 1024 → EReal) (A : Fin 1024 → Fin 1024 → EReal) (Db u : Fin 1024 → Fin 64 → EReal) :
    Fin 1024 → Fin 64 → EReal :=
  fun l n => d l * (∑ m : Fin 1024, A m l * u m n) + Db l n

/-- Five steps from the first iterate `d · B₀`, the residual added after the second of them. -/
def iterK (d : Fin 1024 → EReal) (A : Fin 1024 → Fin 1024 → EReal) (Db Pred : Fin 1024 → Fin 64 → EReal) :
    Fin 1024 → Fin 64 → EReal :=
  stepK d A Db (stepK d A Db (stepK d A Db
    (fun l n => stepK d A Db (stepK d A Db Db) l n + Pred l n)))

/-- From the accumulated projection `acc` (before the bias). -/
def kerOut (acc : Fin 1024 → Fin 1024 → EReal) (β : Fin 1024 → EReal) (Lab Pred : Fin 1024 → Fin 64 → EReal) :
    Fin 1024 → Fin 64 → EReal :=
  iterK (degK (masked (gramSplit fun l h => acc l h + β h))) (attnK (masked (gramSplit fun l h => acc l h + β h)))
    (fun l n => degK (masked (gramSplit fun l h => acc l h + β h)) l * centred Lab l n) Pred

end Cert.LabelSpread

end
-- ==== Proof.Algebra1.lean ====
/-
  The projection and the Gram matrix: the kernel's arrangement against the plain one.
-/
import proofs.«422942_j61220463837889_3_alg».proof.Proof.Spec

noncomputable section

namespace Cert.LabelSpread

open Idealize.ShloMosaic

/-! ## Sums of reals inside the extended reals -/

/-- A finite sum of real numbers, read in the extended reals, is the sum of the readings. -/
private theorem coe_sum {ι : Type} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-! ## The 3072 features as three chunks of 1024 -/

/-- Feature `c * 1024 + k` is feature `k` of chunk `c`, and every feature is one of these exactly once:
    quotient and remainder by 1024 give the chunk and the place in it. -/
private def featEquiv : Fin 3 × Fin 1024 ≃ Fin 3072 where
  toFun p := feat p.1 p.2
  invFun k := (⟨k.val / 1024, by omega⟩, ⟨k.val % 1024, by omega⟩)
  left_inv := by
    rintro ⟨c, k⟩
    apply Prod.ext <;> apply Fin.ext <;> simp only [feat] <;> omega
  right_inv := by
    intro k
    apply Fin.ext
    simp only [feat]
    omega

/-- A sum over all 3072 features is the sum of the three chunks' sums, accumulated from 0 in order. -/
private theorem sum_feat (f : Fin 3072 → EReal) :
    ∑ k : Fin 3072, f k
      = ((0 + ∑ k : Fin 1024, f (feat 0 k)) + ∑ k : Fin 1024, f (feat 1 k)) + ∑ k : Fin 1024, f (feat 2 k) := by
  rw [← Fintype.sum_equiv featEquiv (fun p => f (feat p.1 p.2)) f (fun _ => rfl),
    Fintype.sum_prod_type, Fin.sum_univ_three, zero_add]

/-- Three chunks of 1024 features accumulated from 0, plus the bias, are the whole projection: only the order and
    grouping of a sum differ, so no finiteness is needed. -/
theorem chunkAcc_add_bias (X W : Fin 1024 → Fin 3072 → EReal) (β : Fin 1024 → EReal) :
    (fun l h => chunkAcc X W l h + β h) = proj X W β := by
  funext l h
  unfold chunkAcc proj chunk
  rw [sum_feat (fun k => X l k * W h k)]

/-- A projection of real data is real. -/
theorem proj_real (X W : Fin 1024 → Fin 3072 → EReal) (β : Fin 1024 → EReal)
    (hX : ∀ l k, ∃ r : ℝ, X l k = (r : EReal)) (hW : ∀ h k, ∃ r : ℝ, W h k = (r : EReal))
    (hβ : ∀ h, ∃ r : ℝ, β h = (r : EReal)) :
    ∀ l h, ∃ r : ℝ, proj X W β l h = (r : EReal) := by
  choose x hx using hX
  choose w hw using hW
  choose b hb using hβ
  intro l h
  refine ⟨(∑ k : Fin 3072, x l k * w h k) + b h, ?_⟩
  unfold proj
  simp only [hx, hw, hb]
  rw [EReal.coe_add, ← coe_sum]
  simp only [EReal.coe_mul]

/-- For a real `s` the two cross terms against `s − s` vanish. -/
theorem gramSplit_eq_gram (s : Fin 1024 → Fin 1024 → EReal) (hs : ∀ l h, ∃ r : ℝ, s l h = (r : EReal)) :
    gramSplit s = gram s := by
  choose r hr using hs
  have hz : ∀ a b, s a b - s a b = 0 := by
    intro a b
    rw [hr a b, ← EReal.coe_sub, sub_self, EReal.coe_zero]
  funext l m
  unfold gramSplit
  simp only [hz, mul_zero, Finset.sum_const_zero, add_zero]

/-- The Gram matrix of a real `s` is real: a finite sum of products of reals. -/
private theorem gram_real (s : Fin 1024 → Fin 1024 → EReal) (hs : ∀ l h, ∃ r : ℝ, s l h = (r : EReal)) :
    ∀ l m, ∃ r : ℝ, gram s l m = (r : EReal) := by
  choose r hr using hs
  intro l m
  refine ⟨∑ h : Fin 1024, r l h * r m h, ?_⟩
  unfold gram
  simp only [hr]
  rw [← coe_sum]
  simp only [EReal.coe_mul]

/-- The word `0x47C35000` has sign 0, exponent 143 and significand `0x435000`: it denotes
    `(2^23 + 4411392) · 2^(143 − 127 − 23) = 100000`, a real number. -/
private theorem big_real : ∃ r : ℝ, big = (r : EReal) := by
  refine ⟨100000, ?_⟩
  simp [big, Ideal.ofBits, Ideal.ieee, -EReal.coe_mul]
  norm_num

/-- The masked Gram matrix of a real `s` is real. -/
theorem masked_gram_real (s : Fin 1024 → Fin 1024 → EReal) (hs : ∀ l h, ∃ r : ℝ, s l h = (r : EReal)) :
    ∀ l m, ∃ r : ℝ, masked (gram s) l m = (r : EReal) := by
  intro l m
  obtain ⟨g, hg⟩ := gram_real s hs l m
  obtain ⟨b, hb⟩ := big_real
  unfold masked
  split_ifs with h
  · exact ⟨g - b, by rw [hg, hb, EReal.coe_sub]⟩
  · exact ⟨g, hg⟩

end Cert.LabelSpread

end
-- ==== Proof.Algebra2.lean ====
/-
  The softmax, the degree and the propagation: the kernel's arrangement against the reference's, for a real graph.
-/
import proofs.«422942_j61220463837889_3_alg».proof.Proof.Algebra1
import Idealize.ShloMosaic.Lib.IdealHost

noncomputable section

namespace Cert.LabelSpread

open Idealize.ShloMosaic

/-! ## The named words -/

/-- The pattern `0xFF800000` is `−∞`. -/
private theorem floorV_eq : floorV = ⊥ := by simp [floorV, Ideal.ofBits, Ideal.ieee]

/-- The pattern `0x3F800000` is one. -/
private theorem unit_eq : unit = 1 := Ideal.ofBits_one_f32

/-- The pattern `0x2EDBE6FF` is a real that is not negative (its digits are not needed). -/
private theorem tiny_real : ∃ t : ℝ, 0 ≤ t ∧ tiny = (t : EReal) := by
  unfold tiny
  simp [Ideal.ofBits, Ideal.ieee, -EReal.coe_mul]

/-! ## Sums and maxima of reals inside the extended reals -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real coefficient that is not negative distributes over any finite sum of extended reals. -/
private theorem coe_mul_sum {ι : Type} (r : ℝ) (hr : 0 ≤ r) (s : Finset ι) (x : ι → EReal) :
    (r : EReal) * ∑ i ∈ s, x i = ∑ i ∈ s, (r : EReal) * x i := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- A maximum folded from `−∞` over reals is `−∞` or a real. -/
private theorem fold_max_bot_or_real {ι : Type} (s : Finset ι) (f : ι → EReal)
    (hf : ∀ i, ∃ r : ℝ, f i = (r : EReal)) :
    s.fold max ⊥ f = ⊥ ∨ ∃ r : ℝ, s.fold max ⊥ f = (r : EReal) := by
  classical
  induction s using Finset.induction_on with
  | empty => exact Or.inl Finset.fold_empty
  | insert a s ha ih =>
    right
    obtain ⟨x, hx⟩ := hf a
    rw [Finset.fold_insert ha, hx]
    rcases ih with h | ⟨y, hy⟩
    · rw [h]; exact ⟨x, max_eq_left bot_le⟩
    · rw [hy]
      rcases le_total x y with hxy | hxy
      · exact ⟨y, max_eq_right (EReal.coe_le_coe_iff.2 hxy)⟩
      · exact ⟨x, max_eq_left (EReal.coe_le_coe_iff.2 hxy)⟩

/-! ## A real graph's rows -/

/-- The row maximum of a real graph is real: it is `−∞` or real, and it is at least the row's first entry. -/
private theorem rowmax_real (g : Fin 1024 → Fin 1024 → EReal) (hg : ∀ l m, ∃ r : ℝ, g l m = (r : EReal))
    (l : Fin 1024) : ∃ b : ℝ, rowmax g l = (b : EReal) := by
  unfold rowmax
  rw [floorV_eq]
  rcases fold_max_bot_or_real Finset.univ (g l) (hg l) with h | h
  · exfalso
    obtain ⟨x, hx⟩ := hg l 0
    have hle : g l 0 ≤ Finset.univ.fold max ⊥ (g l) :=
      (Finset.le_fold_max _).2 (Or.inr ⟨0, Finset.mem_univ _, le_rfl⟩)
    rw [h, hx] at hle
    exact EReal.coe_ne_bot x (le_bot_iff.1 hle)
  · exact h

/-- The shifted exponentials of a row of a real graph are positive reals `e m`, and their sum is the positive
    real `r = ∑ e`. -/
private theorem row_facts (g : Fin 1024 → Fin 1024 → EReal) (hg : ∀ l m, ∃ r : ℝ, g l m = (r : EReal))
    (l : Fin 1024) :
    ∃ (e : Fin 1024 → ℝ) (r : ℝ), 0 < r ∧ (∑ m, e m) = r ∧ (∀ m, expo g l m = (e m : EReal))
      ∧ rowsum (expo g) l = (r : EReal) := by
  obtain ⟨b, hb⟩ := rowmax_real g hg l
  choose a ha using hg l
  have he : ∀ m, expo g l m = ((Real.exp (a m - b) : ℝ) : EReal) := fun m => by
    unfold expo
    rw [hb, ha m, ← EReal.coe_sub, Ideal.exp_coe]
  refine ⟨fun m => Real.exp (a m - b), ∑ m, Real.exp (a m - b),
    Finset.sum_pos (fun m _ => Real.exp_pos _) Finset.univ_nonempty, rfl, he, ?_⟩
  unfold rowsum
  rw [coe_sum]
  exact Finset.sum_congr rfl (fun m _ => he m)

/-- The normalised row of a real graph sums to one. -/
private theorem sum_attnR_eq_one (g : Fin 1024 → Fin 1024 → EReal) (hg : ∀ l m, ∃ r : ℝ, g l m = (r : EReal))
    (l : Fin 1024) : (∑ m, attnR g l m) = 1 := by
  obtain ⟨e, r, hr, hsum, he, hrs⟩ := row_facts g hg l
  have hr0 : r ≠ 0 := hr.ne'
  have h : ∀ m, attnR g l m = ((e m * (1 / r) : ℝ) : EReal) := fun m => by
    unfold attnR
    rw [hrs, he m, Ideal.div_coe hr0, ← EReal.coe_mul]
  rw [Finset.sum_congr rfl (fun m _ => h m), ← coe_sum, ← Finset.sum_mul, hsum, mul_one_div, div_self hr0,
    EReal.coe_one]

/-- For a real graph the row sums of the shifted exponentials are real and not zero, so multiplying by the reciprocal is dividing. -/
theorem attnK_eq_attnR (g : Fin 1024 → Fin 1024 → EReal) (hg : ∀ l m, ∃ r : ℝ, g l m = (r : EReal)) :
    attnK g = attnR g := by
  funext l m
  obtain ⟨e, r, hr, _, _, hrs⟩ := row_facts g hg l
  unfold attnK attnR invK
  rw [hrs, unit_eq]
  exact Ideal.mul_one_div (EReal.coe_ne_zero.2 hr.ne')

/-- Both degrees are `1 / (1 + 1e-10)`: `r · (1 / r) = 1` and the normalised row sums to 1. -/
theorem degK_eq_degR (g : Fin 1024 → Fin 1024 → EReal) (hg : ∀ l m, ∃ r : ℝ, g l m = (r : EReal)) :
    degK g = degR g := by
  funext l
  obtain ⟨e, r, hr, _, _, hrs⟩ := row_facts g hg l
  have hr0 : r ≠ 0 := hr.ne'
  have hK : rowsum (expo g) l * invK g l = 1 := by
    unfold invK
    rw [hrs, unit_eq, Ideal.div_coe hr0, one_mul, ← EReal.coe_mul, mul_one_div, div_self hr0, EReal.coe_one]
  unfold degK degR
  rw [hK, sum_attnR_eq_one g hg l]

/-- The degree of a real graph is a nonnegative real. -/
theorem degR_nonneg_real (g : Fin 1024 → Fin 1024 → EReal) (hg : ∀ l m, ∃ r : ℝ, g l m = (r : EReal)) :
    ∀ l, ∃ r : ℝ, 0 ≤ r ∧ degR g l = (r : EReal) := by
  intro l
  obtain ⟨t, ht, htiny⟩ := tiny_real
  have h1 : (0 : ℝ) < 1 + t := by linarith
  refine ⟨1 / (1 + t), (one_div_pos.2 h1).le, ?_⟩
  unfold degR
  rw [sum_attnR_eq_one g hg l, unit_eq, htiny, ← EReal.coe_one, ← EReal.coe_add, Ideal.div_coe h1.ne',
    ← EReal.coe_mul, one_mul]

/-- With a nonnegative real scale, scaling `Aᵀ u` afterwards is multiplying by the scaled transpose. -/
private theorem stepK_eq_stepR (d : Fin 1024 → EReal) (A : Fin 1024 → Fin 1024 → EReal) (Db : Fin 1024 → Fin 64 → EReal)
    (hd : ∀ l, ∃ r : ℝ, 0 ≤ r ∧ d l = (r : EReal)) :
    stepK d A Db = stepR d A Db := by
  funext u l n
  obtain ⟨r, hr, hdl⟩ := hd l
  unfold stepK stepR
  rw [hdl, coe_mul_sum r hr]
  exact congrArg (· + Db l n) (Finset.sum_congr rfl (fun m _ => (mul_assoc _ _ _).symm))

/-- The reference's first step from 0 is the first iterate. -/
private theorem stepR_zero (d : Fin 1024 → EReal) (A : Fin 1024 → Fin 1024 → EReal) (Db : Fin 1024 → Fin 64 → EReal) :
    stepR d A Db (fun _ _ => 0) = Db := by
  funext l n
  unfold stepR
  rw [Finset.sum_eq_zero (fun m _ => mul_zero _), zero_add]

/-- A nonnegative real scale leaves a sum of extended reals termwise, so scaling `Aᵀ u` afterwards is multiplying by the
    scaled transpose; and the reference's first step from 0 is the first iterate. No finiteness of `A`, `Db`, `Pred` is needed. -/
theorem iterK_eq_iterR (d : Fin 1024 → EReal) (A : Fin 1024 → Fin 1024 → EReal) (Db Pred : Fin 1024 → Fin 64 → EReal)
    (hd : ∀ l, ∃ r : ℝ, 0 ≤ r ∧ d l = (r : EReal)) :
    iterK d A Db Pred = iterR d A Db Pred := by
  unfold iterK iterR
  rw [stepK_eq_stepR d A Db hd, stepR_zero]

/-- On real samples, weights and bias the two arrangements are one function (labels and residual unrestricted). -/
theorem kerOut_eq_refOut (X W : Fin 1024 → Fin 3072 → EReal) (β : Fin 1024 → EReal) (Lab Pred : Fin 1024 → Fin 64 → EReal)
    (hX : ∀ l k, ∃ r : ℝ, X l k = (r : EReal)) (hW : ∀ h k, ∃ r : ℝ, W h k = (r : EReal))
    (hβ : ∀ h, ∃ r : ℝ, β h = (r : EReal)) :
    kerOut (chunkAcc X W) β Lab Pred = refOut X W β Lab Pred := by
  have hs := proj_real X W β hX hW hβ
  have hg := masked_gram_real (proj X W β) hs
  unfold kerOut refOut
  rw [chunkAcc_add_bias, gramSplit_eq_gram _ hs, attnK_eq_attnR _ hg, degK_eq_degR _ hg]
  exact iterK_eq_iterR _ _ _ _ (degR_nonneg_real _ hg)

end Cert.LabelSpread

end
-- ==== Proof.RefReadA.lean ====
/-
  The reference's run read at an index, first half: the projection, the masked Gram matrix, the shifted exponentials
  and the row softmax of batch `b`.
-/
import proofs.«422942_j61220463837889_3_alg».proof.Proof.Spec
import proofs.«422942_j61220463837889_3_alg».proof.Proof.Gen.ReferenceIdeal.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem Cert.LabelSpread

/-- The arguments as plain functions: batch `b`'s samples, the weights, the bias, batch `b`'s labels and residual. -/
def Xb (V0 : Valuation τ sig (Elt Ideal)) (b : Fin 8) : Fin 1024 → Fin 3072 → EReal :=
  fun l k => V0 (Proc.devRef .tc main_arg0) (ix3 b l k)
def Wm (V0 : Valuation τ sig (Elt Ideal)) : Fin 1024 → Fin 3072 → EReal :=
  fun h k => V0 (Proc.devRef .tc main_arg3) (ix2 h k)
def βv (V0 : Valuation τ sig (Elt Ideal)) : Fin 1024 → EReal :=
  fun h => V0 (Proc.devRef .tc main_arg4) (ix1 h)
def Labb (V0 : Valuation τ sig (Elt Ideal)) (b : Fin 8) : Fin 1024 → Fin 64 → EReal :=
  fun l n => V0 (Proc.devRef .tc main_arg1) (ix3 b l n)
def Predb (V0 : Valuation τ sig (Elt Ideal)) (b : Fin 8) : Fin 1024 → Fin 64 → EReal :=
  fun l n => V0 (Proc.devRef .tc main_arg2) (ix3 b l n)

/-- Batch `b`'s masked Gram matrix. -/
def gb (V0 : Valuation τ sig (Elt Ideal)) (b : Fin 8) : Fin 1024 → Fin 1024 → EReal :=
  masked (gram (proj (Xb V0 b) (Wm V0) (βv V0)))

/-! ### The projection: a product contracting the feature axis, plus the bias along the last axis -/

private theorem lhs_proj_0 (i : S8x1024x1024.Idx) (q : dot_S8x1024x3072_S1024x3072_S8x1024x1024_2_1_01_0_n_n.contr.Idx) :
    (dot_S8x1024x3072_S1024x3072_S8x1024x1024_2_1_01_0_n_n.lhsIdx i q 0).val = (i 0).val := by
  unfold DotDims.lhsIdx
  rw [dif_neg (show ¬(0 : Fin S8x1024x3072.rank) ∈ dot_S8x1024x3072_S1024x3072_S8x1024x1024_2_1_01_0_n_n.lhsBatch by decide),
    dif_pos (show (0 : Fin S8x1024x3072.rank) ∈ dot_S8x1024x3072_S1024x3072_S8x1024x1024_2_1_01_0_n_n.lhsNonContracting by decide)]
  rfl
private theorem lhs_proj_1 (i : S8x1024x1024.Idx) (q : dot_S8x1024x3072_S1024x3072_S8x1024x1024_2_1_01_0_n_n.contr.Idx) :
    (dot_S8x1024x3072_S1024x3072_S8x1024x1024_2_1_01_0_n_n.lhsIdx i q 1).val = (i 1).val := by
  unfold DotDims.lhsIdx
  rw [dif_neg (show ¬(1 : Fin S8x1024x3072.rank) ∈ dot_S8x1024x3072_S1024x3072_S8x1024x1024_2_1_01_0_n_n.lhsBatch by decide),
    dif_pos (show (1 : Fin S8x1024x3072.rank) ∈ dot_S8x1024x3072_S1024x3072_S8x1024x1024_2_1_01_0_n_n.lhsNonContracting by decide)]
  rfl
private theorem lhs_proj_2 (i : S8x1024x1024.Idx) (q : dot_S8x1024x3072_S1024x3072_S8x1024x1024_2_1_01_0_n_n.contr.Idx) :
    (dot_S8x1024x3072_S1024x3072_S8x1024x1024_2_1_01_0_n_n.lhsIdx i q 2).val = (q ⟨0, by decide⟩).val :=
  dot_S8x1024x3072_S1024x3072_S8x1024x1024_2_1_01_0_n_n.lhsIdx_val_of_single rfl i q
private theorem rhs_proj_0 (i : S8x1024x1024.Idx) (q : dot_S8x1024x3072_S1024x3072_S8x1024x1024_2_1_01_0_n_n.contr.Idx) :
    (dot_S8x1024x3072_S1024x3072_S8x1024x1024_2_1_01_0_n_n.rhsIdx i q 0).val = (i 2).val := by
  unfold DotDims.rhsIdx
  rw [dif_neg (show ¬(0 : Fin S1024x3072.rank) ∈ dot_S8x1024x3072_S1024x3072_S8x1024x1024_2_1_01_0_n_n.rhsBatch by decide),
    dif_pos (show (0 : Fin S1024x3072.rank) ∈ dot_S8x1024x3072_S1024x3072_S8x1024x1024_2_1_01_0_n_n.rhsNonContracting by decide)]
  rfl
private theorem rhs_proj_1 (i : S8x1024x1024.Idx) (q : dot_S8x1024x3072_S1024x3072_S8x1024x1024_2_1_01_0_n_n.contr.Idx) :
    (dot_S8x1024x3072_S1024x3072_S8x1024x1024_2_1_01_0_n_n.rhsIdx i q 1).val = (q ⟨0, by decide⟩).val :=
  dot_S8x1024x3072_S1024x3072_S8x1024x1024_2_1_01_0_n_n.rhsIdx_val_of_single rfl i q

/-- The product at (b, l, h) is the sum over the 3072 features of sample (b, l) against weight row h. -/
private theorem proj_dot_apply (x : FVec Ideal S8x1024x3072 .f32) (w : FVec Ideal S1024x3072 .f32) (b : Fin 8) (l h : Fin 1024) :
    Host.dotGeneral dot_S8x1024x3072_S1024x3072_S8x1024x1024_2_1_01_0_n_n none x w (ix3 b l h)
      = ∑ k : Fin 3072, x (ix3 b l k) * w (ix2 h k) := by
  simp only [Host.dotGeneral]
  rw [Ideal.dotGeneral_apply,
    ← Equiv.sum_comp (contrEquiv1 dot_S8x1024x3072_S1024x3072_S8x1024x1024_2_1_01_0_n_n 3072 rfl rfl).symm]
  refine Finset.sum_congr rfl fun k _ => ?_
  have hk := contrEquiv1_symm_val dot_S8x1024x3072_S1024x3072_S8x1024x1024_2_1_01_0_n_n 3072 rfl rfl k
  have el : dot_S8x1024x3072_S1024x3072_S8x1024x1024_2_1_01_0_n_n.lhsIdx (ix3 b l h)
      ((contrEquiv1 dot_S8x1024x3072_S1024x3072_S8x1024x1024_2_1_01_0_n_n 3072 rfl rfl).symm k) = ix3 b l k :=
    funext fun a => Fin.ext (by
      match a with
      | ⟨0, _⟩ => exact lhs_proj_0 _ _
      | ⟨1, _⟩ => exact lhs_proj_1 _ _
      | ⟨2, _⟩ => exact (lhs_proj_2 _ _).trans hk)
  have er : dot_S8x1024x3072_S1024x3072_S8x1024x1024_2_1_01_0_n_n.rhsIdx (ix3 b l h)
      ((contrEquiv1 dot_S8x1024x3072_S1024x3072_S8x1024x1024_2_1_01_0_n_n 3072 rfl rfl).symm k) = ix2 h k :=
    funext fun a => Fin.ext (by
      match a with
      | ⟨0, _⟩ => exact rhs_proj_0 _ _
      | ⟨1, _⟩ => exact (rhs_proj_1 _ _).trans hk)
  rw [el, er]

/-- The bias, broadcast through a [1, 1, 1024] array, reads its entry h at (b, l, h). -/
private theorem bias_apply (β : FVec Ideal S1024 .f32) (b : Fin 8) (l h : Fin 1024) :
    broadcastInDim S8x1024x1024 ![0, 1, 2] bcast_S1x1x1024_S8x1024x1024_0_1_2
        (broadcastInDim S1x1x1024 ![2] bcast_S1024_S1x1x1024_2 β) (ix3 b l h) = β (ix1 h) := by
  rw [broadcastInDim_apply _ _ _ (ix3 b l h) (ix3 (0 : Fin 1) (0 : Fin 1) h) (fun a => by
      match a with
      | ⟨0, _⟩ => rfl
      | ⟨1, _⟩ => rfl
      | ⟨2, _⟩ => rfl),
    broadcastInDim_apply _ _ _ (ix3 (0 : Fin 1) (0 : Fin 1) h) (ix1 h) (fun a => by
      match a with
      | ⟨0, _⟩ => rfl)]

theorem v3_apply (V0 : Valuation τ sig (Elt Ideal)) (b : Fin 8) (l h : Fin 1024) :
    res_main_v3 V0 (ix3 b l h) = proj (Xb V0 b) (Wm V0) (βv V0) l h := by
  unfold res_main_v3
  rw [addf_apply, proj_dot_apply, bias_apply]
  rfl

/-! ### The masked Gram matrix: a batched product contracting the last axis of both operands, minus 1e5 on the diagonal -/

private theorem lhs_gram_0 (i : S8x1024x1024.Idx) (q : dot_S8x1024x1024_S8x1024x1024_S8x1024x1024_2_2_1_1_0_0.contr.Idx) :
    (dot_S8x1024x1024_S8x1024x1024_S8x1024x1024_2_2_1_1_0_0.lhsIdx i q 0).val = (i 0).val := by
  unfold DotDims.lhsIdx
  rw [dif_pos (show (0 : Fin S8x1024x1024.rank) ∈ dot_S8x1024x1024_S8x1024x1024_S8x1024x1024_2_2_1_1_0_0.lhsBatch by decide)]
  rfl
private theorem lhs_gram_1 (i : S8x1024x1024.Idx) (q : dot_S8x1024x1024_S8x1024x1024_S8x1024x1024_2_2_1_1_0_0.contr.Idx) :
    (dot_S8x1024x1024_S8x1024x1024_S8x1024x1024_2_2_1_1_0_0.lhsIdx i q 1).val = (i 1).val := by
  unfold DotDims.lhsIdx
  rw [dif_neg (show ¬(1 : Fin S8x1024x1024.rank) ∈ dot_S8x1024x1024_S8x1024x1024_S8x1024x1024_2_2_1_1_0_0.lhsBatch by decide),
    dif_pos (show (1 : Fin S8x1024x1024.rank) ∈ dot_S8x1024x1024_S8x1024x1024_S8x1024x1024_2_2_1_1_0_0.lhsNonContracting by decide)]
  rfl
private theorem lhs_gram_2 (i : S8x1024x1024.Idx) (q : dot_S8x1024x1024_S8x1024x1024_S8x1024x1024_2_2_1_1_0_0.contr.Idx) :
    (dot_S8x1024x1024_S8x1024x1024_S8x1024x1024_2_2_1_1_0_0.lhsIdx i q 2).val = (q ⟨0, by decide⟩).val :=
  dot_S8x1024x1024_S8x1024x1024_S8x1024x1024_2_2_1_1_0_0.lhsIdx_val_of_single rfl i q
private theorem rhs_gram_0 (i : S8x1024x1024.Idx) (q : dot_S8x1024x1024_S8x1024x1024_S8x1024x1024_2_2_1_1_0_0.contr.Idx) :
    (dot_S8x1024x1024_S8x1024x1024_S8x1024x1024_2_2_1_1_0_0.rhsIdx i q 0).val = (i 0).val := by
  unfold DotDims.rhsIdx
  rw [dif_pos (show (0 : Fin S8x1024x1024.rank) ∈ dot_S8x1024x1024_S8x1024x1024_S8x1024x1024_2_2_1_1_0_0.rhsBatch by decide)]
  rfl
private theorem rhs_gram_1 (i : S8x1024x1024.Idx) (q : dot_S8x1024x1024_S8x1024x1024_S8x1024x1024_2_2_1_1_0_0.contr.Idx) :
    (dot_S8x1024x1024_S8x1024x1024_S8x1024x1024_2_2_1_1_0_0.rhsIdx i q 1).val = (i 2).val := by
  unfold DotDims.rhsIdx
  rw [dif_neg (show ¬(1 : Fin S8x1024x1024.rank) ∈ dot_S8x1024x1024_S8x1024x1024_S8x1024x1024_2_2_1_1_0_0.rhsBatch by decide),
    dif_pos (show (1 : Fin S8x1024x1024.rank) ∈ dot_S8x1024x1024_S8x1024x1024_S8x1024x1024_2_2_1_1_0_0.rhsNonContracting by decide)]
  rfl
private theorem rhs_gram_2 (i : S8x1024x1024.Idx) (q : dot_S8x1024x1024_S8x1024x1024_S8x1024x1024_2_2_1_1_0_0.contr.Idx) :
    (dot_S8x1024x1024_S8x1024x1024_S8x1024x1024_2_2_1_1_0_0.rhsIdx i q 2).val = (q ⟨0, by decide⟩).val :=
  dot_S8x1024x1024_S8x1024x1024_S8x1024x1024_2_2_1_1_0_0.rhsIdx_val_of_single rfl i q

/-- The batched product at (b, l, m) is the sum over h of row l against row m of batch b. -/
private theorem gram_dot_apply (x y : FVec Ideal S8x1024x1024 .f32) (b : Fin 8) (l m : Fin 1024) :
    Host.dotGeneral dot_S8x1024x1024_S8x1024x1024_S8x1024x1024_2_2_1_1_0_0 none x y (ix3 b l m)
      = ∑ h : Fin 1024, x (ix3 b l h) * y (ix3 b m h) := by
  simp only [Host.dotGeneral]
  rw [Ideal.dotGeneral_apply,
    ← Equiv.sum_comp (contrEquiv1 dot_S8x1024x1024_S8x1024x1024_S8x1024x1024_2_2_1_1_0_0 1024 rfl rfl).symm]
  refine Finset.sum_congr rfl fun k _ => ?_
  have hk := contrEquiv1_symm_val dot_S8x1024x1024_S8x1024x1024_S8x1024x1024_2_2_1_1_0_0 1024 rfl rfl k
  have el : dot_S8x1024x1024_S8x1024x1024_S8x1024x1024_2_2_1_1_0_0.lhsIdx (ix3 b l m)
      ((contrEquiv1 dot_S8x1024x1024_S8x1024x1024_S8x1024x1024_2_2_1_1_0_0 1024 rfl rfl).symm k) = ix3 b l k :=
    funext fun a => Fin.ext (by
      match a with
      | ⟨0, _⟩ => exact lhs_gram_0 _ _
      | ⟨1, _⟩ => exact lhs_gram_1 _ _
      | ⟨2, _⟩ => exact (lhs_gram_2 _ _).trans hk)
  have er : dot_S8x1024x1024_S8x1024x1024_S8x1024x1024_2_2_1_1_0_0.rhsIdx (ix3 b l m)
      ((contrEquiv1 dot_S8x1024x1024_S8x1024x1024_S8x1024x1024_2_2_1_1_0_0 1024 rfl rfl).symm k) = ix3 b m k :=
    funext fun a => Fin.ext (by
      match a with
      | ⟨0, _⟩ => exact rhs_gram_0 _ _
      | ⟨1, _⟩ => exact rhs_gram_1 _ _
      | ⟨2, _⟩ => exact (rhs_gram_2 _ _).trans hk)
  rw [el, er]

/-- The one-bit word "row index equals column index", converted to a float, is 1 on the diagonal and 0 off it
    (both indices are below 2³², so the 32-bit words are equal exactly when the indices are). -/
private theorem diag_word (l m : Fin 1024) :
    (FloatOps.uitofp (F := Ideal) .f32
        (IntOp.cmpi .eq (IntOp.addi (BitVec.ofNat 32 l.val) 0#32) (BitVec.ofNat 32 m.val)) : EReal)
      = if l = m then 1 else 0 := by
  have hu : ∀ c : BitVec 1, (FloatOps.uitofp (F := Ideal) .f32 c : EReal) = ((c.toNat : ℝ) : EReal) := fun _ => rfl
  rw [hu]
  have ha : IntOp.addi (BitVec.ofNat 32 l.val) 0#32 = BitVec.ofNat 32 l.val := BitVec.add_zero _
  rw [ha]
  by_cases hlm : l = m
  · subst hlm
    rw [if_pos rfl, StableHlo.Predicate.cmpi_eq_iff.mpr rfl]
    simp
  · rw [if_neg hlm]
    have hne : ¬ IntOp.cmpi .eq (BitVec.ofNat 32 l.val) (BitVec.ofNat 32 m.val) = 1#1 := fun h => by
      have e := congrArg BitVec.toNat (StableHlo.Predicate.cmpi_eq_iff.mp h)
      rw [BitVec.toNat_ofNat, BitVec.toNat_ofNat, Nat.mod_eq_of_lt (by have := l.isLt; omega),
        Nat.mod_eq_of_lt (by have := m.isLt; omega)] at e
      exact hlm (Fin.ext e)
    rw [eq_zero_of_ne_one hne]
    simp

/-- The mask term at (b, l, m): 1e5 on the diagonal, 0 off it. -/
private theorem mask_apply (b : Fin 8) (l m : Fin 1024) :
    (broadcastInDim S8x1024x1024 ![0, 1, 2] bcast_S1x1024x1024_S8x1024x1024_0_1_2
        (broadcastInDim S1x1024x1024 ![1, 2] bcast_S1024x1024_S1x1024x1024_1_2
          (mulf (broadcastInDim S1024x1024 ![] bcast_S_S1024x1024 (constant (F := Ideal) S_ .f32 0x47C35000#32))
            (uitofp .f32 (cmpi .eq (addi (iotaInDim S1024x1024 32 0)
              (broadcastInDim S1024x1024 ![] bcast_S_S1024x1024 (constantI S_ 32 0#32))) (iotaInDim S1024x1024 32 1)))))
      : FVec Ideal S8x1024x1024 .f32) (ix3 b l m) = if l = m then big else 0 := by
  rw [broadcastInDim_apply _ _ _ (ix3 b l m) (ix3 (0 : Fin 1) l m) (fun a => by
      match a with
      | ⟨0, _⟩ => rfl
      | ⟨1, _⟩ => rfl
      | ⟨2, _⟩ => rfl),
    broadcastInDim_apply _ _ _ (ix3 (0 : Fin 1) l m) (ix2 l m) (fun a => by
      match a with
      | ⟨0, _⟩ => rfl
      | ⟨1, _⟩ => rfl),
    mulf_apply, broadcastInDim_scalar_apply, constant_apply]
  show big * (FloatOps.uitofp (F := Ideal) .f32
        (IntOp.cmpi .eq (IntOp.addi (BitVec.ofNat 32 l.val) 0#32) (BitVec.ofNat 32 m.val)) : EReal) = _
  rw [diag_word]
  by_cases hlm : l = m
  · rw [if_pos hlm, if_pos hlm, mul_one]
  · rw [if_neg hlm, if_neg hlm, mul_zero]

theorem v15_apply (V0 : Valuation τ sig (Elt Ideal)) (b : Fin 8) (l m : Fin 1024) :
    res_main_v15 V0 (ix3 b l m) = gb V0 b l m := by
  unfold res_main_v15
  rw [subf_apply, gram_dot_apply, mask_apply]
  simp only [v3_apply]
  unfold gb masked gram
  by_cases hlm : l = m
  · rw [if_pos hlm, if_pos hlm]
  · rw [if_neg hlm, if_neg hlm, sub_zero]

/-! ### The shifted exponentials and the row softmax: reductions over the last axis, broadcast back along it -/

/-- The reduced index (b, l) with coordinate k put back on the last axis is (b, l, k). -/
private theorem lift_row (h : S8x1024x1024.Reduces [2] S8x1024) (b : Fin 8) (l : Fin 1024) (k : Fin (S8x1024x1024.size 2)) :
    h.lift (ix2 b l) k = ix3 b l (⟨k.val, k.isLt⟩ : Fin 1024) := by
  funext c; apply Fin.ext
  match c with
  | ⟨0, _⟩ => rfl
  | ⟨1, _⟩ => rfl
  | ⟨2, _⟩ => rfl

/-- A per-row value, broadcast through a [8, 1024, 1] array, reads row (b, l)'s entry at (b, l, m). -/
private theorem rowbcast_apply (y : FVec Ideal S8x1024 .f32) (b : Fin 8) (l m : Fin 1024) :
    broadcastInDim S8x1024x1024 ![0, 1, 2] bcast_S8x1024x1_S8x1024x1024_0_1_2
        (broadcastInDim S8x1024x1 ![0, 1] bcast_S8x1024_S8x1024x1_0_1 y) (ix3 b l m) = y (ix2 b l) := by
  rw [broadcastInDim_apply _ _ _ (ix3 b l m) (ix3 b l (0 : Fin 1)) (fun a => by
      match a with
      | ⟨0, _⟩ => rfl
      | ⟨1, _⟩ => rfl
      | ⟨2, _⟩ => rfl),
    broadcastInDim_apply _ _ _ (ix3 b l (0 : Fin 1)) (ix2 b l) (fun a => by
      match a with
      | ⟨0, _⟩ => rfl
      | ⟨1, _⟩ => rfl)]

/-- The exponential at an index is the extended reals' exponential of the element. -/
private theorem hostExp_apply {s : Shape} {φ : FTy} (x : FVec Ideal s φ) (i : s.Idx) : Host.exp x i = Ideal.exp (x i) := rfl

/-- The reduce with a maximum body from −∞ over the last axis, joined once more with −∞ (the pattern denotes ⊥, the
    identity of max), is at (b, l) the fold of max from −∞ over row (b, l). -/
private theorem rowmax_apply (x : FVec Ideal S8x1024x1024 .f32) (b : Fin 8) (l : Fin 1024) :
    (maximumf (broadcastInDim S8x1024 ![] bcast_S_S8x1024 (constant (F := Ideal) S_ .f32 0xFF800000#32))
        (Host.reduce FloatOps.maximumf x (constant (F := Ideal) S_ .f32 0xFF800000#32) reducesTo_S8x1024x1024_S8x1024_d2 h_S_)
      : FVec Ideal S8x1024 .f32) (ix2 b l)
      = (Finset.univ : Finset (Fin 1024)).fold max floorV (fun k => x (ix3 b l k)) := by
  have h : S8x1024x1024.Reduces [2] S8x1024 := by decide
  rw [maximumf_apply, broadcastInDim_scalar_apply,
    Host.reduce_eq_fold_single FloatOps.maximumf x _ reducesTo_S8x1024x1024_S8x1024_d2 h h_S_]
  simp only [constant_apply]
  have hb : ∀ y : EReal, max (Ideal.ofBits .f32 0xFF800000#32) y = y := fun y => by simp [Ideal.ofBits, Ideal.ieee]
  rw [hb]
  have hf : (x ∘ h.lift (ix2 b l)) = fun k : Fin 1024 => x (ix3 b l k) := funext fun k => congrArg x (lift_row h b l k)
  exact congrArg (fun f => Finset.fold max floorV f (Finset.univ : Finset (Fin 1024))) hf

theorem v22_apply (V0 : Valuation τ sig (Elt Ideal)) (b : Fin 8) (l m : Fin 1024) :
    res_main_v22 V0 (ix3 b l m) = expo (gb V0 b) l m := by
  unfold res_main_v22
  rw [hostExp_apply, subf_apply, rowbcast_apply, rowmax_apply]
  simp only [v15_apply]
  rfl

/-- The sum from 0 over the last axis is at (b, l) the sum over row (b, l). -/
private theorem rowsum_apply (x : FVec Ideal S8x1024x1024 .f32) (b : Fin 8) (l : Fin 1024) :
    Host.reduceAdd x (constant (F := Ideal) S_ .f32 0x00000000#32) reducesTo_S8x1024x1024_S8x1024_d2 h_S_ (ix2 b l)
      = ∑ k : Fin 1024, x (ix3 b l k) := by
  have h : S8x1024x1024.Reduces [2] S8x1024 := by decide
  rw [hostReduceAdd_apply, Ideal.hostReduceAdd_single reducesTo_S8x1024x1024_S8x1024_d2 h, constant_apply,
    Ideal.ofBits_zero_f32, zero_add]
  exact Finset.sum_congr rfl fun k _ => congrArg x (lift_row h b l k)

theorem v26_apply (V0 : Valuation τ sig (Elt Ideal)) (b : Fin 8) (l m : Fin 1024) :
    res_main_v26 V0 (ix3 b l m) = attnR (gb V0 b) l m := by
  unfold res_main_v26
  rw [hostDivf_apply, rowbcast_apply, rowsum_apply]
  simp only [v22_apply]
  rfl

end Cert.ReferenceIdeal.RefValue

end
-- ==== Proof.RefReadB.lean ====
/-
  The reference's run read at an index, second half: the marked rows, the degree, the scaled transpose, the centred
  labels, one propagation step and the six of them.
-/
import proofs.«422942_j61220463837889_3_alg».proof.Proof.RefReadA

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem Cert.LabelSpread

/-! ## The stages read at explicit coordinates -/

/-- A sum over the last axis of a stack of 1024 × 64 matrices, read at row (b, l). -/
private theorem sumLast64_apply (x : FVec Ideal S8x1024x64 .f32) (b : Fin 8) (l : Fin 1024) :
    Host.reduceAdd (F := Ideal) x (constant S_ .f32 0x00000000#32) reducesTo_S8x1024x64_S8x1024_d2 h_S_ (ix2 b l)
      = ∑ n : Fin 64, x (ix3 b l n) := by
  simp only [Host.reduceAdd, Ideal.hostReduceAdd_def]
  rw [Ideal.hostReduceAdd_single reducesTo_S8x1024x64_S8x1024_d2 (by decide)]
  rw [constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- A sum over the last axis of a stack of 1024 × 1024 matrices, read at row (b, l). -/
private theorem sumLast1024_apply (x : FVec Ideal S8x1024x1024 .f32) (b : Fin 8) (l : Fin 1024) :
    Host.reduceAdd (F := Ideal) x (constant S_ .f32 0x00000000#32) reducesTo_S8x1024x1024_S8x1024_d2 h_S_ (ix2 b l)
      = ∑ m : Fin 1024, x (ix3 b l m) := by
  simp only [Host.reduceAdd, Ideal.hostReduceAdd_def]
  rw [Ideal.hostReduceAdd_single reducesTo_S8x1024x1024_S8x1024_d2 (by decide)]
  rw [constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- A sum over the rows (axis 1) of a stack of 1024 × 64 matrices, read at column (b, n). -/
private theorem sumRows64_apply (x : FVec Ideal S8x1024x64 .f32) (b : Fin 8) (n : Fin 64) :
    Host.reduceAdd (F := Ideal) x (constant S_ .f32 0x00000000#32) reducesTo_S8x1024x64_S8x64_d1 h_S_ (ix2 b n)
      = ∑ l' : Fin 1024, x (ix3 b l' n) := by
  simp only [Host.reduceAdd, Ideal.hostReduceAdd_def]
  rw [Ideal.hostReduceAdd_single reducesTo_S8x1024x64_S8x64_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- A sum over the 1024 rows of each batch of an 8 × 1024 array, read at batch b. -/
private theorem sumBatch_apply (y : FVec Ideal S8x1024 .f32) (b : Fin 8) :
    Host.reduceAdd (F := Ideal) y (constant S_ .f32 0x00000000#32) reducesTo_S8x1024_S8_d1 h_S_ (ix1 b)
      = ∑ l' : Fin 1024, y (ix2 b l') := by
  simp only [Host.reduceAdd, Ideal.hostReduceAdd_def]
  rw [Ideal.hostReduceAdd_single reducesTo_S8x1024_S8_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- A scalar splat over the 8 × 1024 rows reads its word everywhere. -/
private theorem splat2_apply (w : BitVec 32) (b : Fin 8) (l : Fin 1024) :
    broadcastInDim S8x1024 ![] bcast_S_S8x1024 (constant (F := Ideal) S_ .f32 w) (ix2 b l) = Ideal.ofBits .f32 w := by
  rw [broadcastInDim_apply _ bcast_S_S8x1024 _ (ix2 b l) ix0 (fun a => a.elim0)]
  rfl

/-- A per-row value spread along a new last axis of 1024 columns reads the row's value. -/
private theorem rowSpread1024_apply (d : FVec Ideal S8x1024 .f32) (b : Fin 8) (l m : Fin 1024) :
    broadcastInDim S8x1024x1024 ![0, 1, 2] bcast_S8x1024x1_S8x1024x1024_0_1_2
        (broadcastInDim S8x1024x1 ![0, 1] bcast_S8x1024_S8x1024x1_0_1 d) (ix3 b l m) = d (ix2 b l) := by
  rw [broadcastInDim_apply _ bcast_S8x1024x1_S8x1024x1024_0_1_2 _ (ix3 b l m) (ix3 b l (0 : Fin 1)) (fun a => by
    match a with
    | ⟨0, _⟩ => show b.val = if (8 : Nat) = 1 then 0 else b.val; rw [if_neg (by decide)]
    | ⟨1, _⟩ => show l.val = if (1024 : Nat) = 1 then 0 else l.val; rw [if_neg (by decide)]
    | ⟨2, _⟩ => show 0 = if (1 : Nat) = 1 then 0 else m.val; rw [if_pos rfl])]
  rw [broadcastInDim_apply _ bcast_S8x1024_S8x1024x1_0_1 _ (ix3 b l (0 : Fin 1)) (ix2 b l) (fun a => by
    match a with
    | ⟨0, _⟩ => show b.val = if (8 : Nat) = 1 then 0 else b.val; rw [if_neg (by decide)]
    | ⟨1, _⟩ => show l.val = if (1024 : Nat) = 1 then 0 else l.val; rw [if_neg (by decide)])]

/-- A per-row value spread along a new last axis of 64 columns reads the row's value. -/
private theorem rowSpread64_apply (d : FVec Ideal S8x1024 .f32) (b : Fin 8) (l : Fin 1024) (n : Fin 64) :
    broadcastInDim S8x1024x64 ![0, 1, 2] bcast_S8x1024x1_S8x1024x64_0_1_2
        (broadcastInDim S8x1024x1 ![0, 1] bcast_S8x1024_S8x1024x1_0_1 d) (ix3 b l n) = d (ix2 b l) := by
  rw [broadcastInDim_apply _ bcast_S8x1024x1_S8x1024x64_0_1_2 _ (ix3 b l n) (ix3 b l (0 : Fin 1)) (fun a => by
    match a with
    | ⟨0, _⟩ => show b.val = if (8 : Nat) = 1 then 0 else b.val; rw [if_neg (by decide)]
    | ⟨1, _⟩ => show l.val = if (1024 : Nat) = 1 then 0 else l.val; rw [if_neg (by decide)]
    | ⟨2, _⟩ => show 0 = if (1 : Nat) = 1 then 0 else n.val; rw [if_pos rfl])]
  rw [broadcastInDim_apply _ bcast_S8x1024_S8x1024x1_0_1 _ (ix3 b l (0 : Fin 1)) (ix2 b l) (fun a => by
    match a with
    | ⟨0, _⟩ => show b.val = if (8 : Nat) = 1 then 0 else b.val; rw [if_neg (by decide)]
    | ⟨1, _⟩ => show l.val = if (1024 : Nat) = 1 then 0 else l.val; rw [if_neg (by decide)])]

/-- A per-column value spread over the 1024 rows reads the column's value. -/
private theorem colSpread_apply (c : FVec Ideal S8x64 .f32) (b : Fin 8) (l : Fin 1024) (n : Fin 64) :
    broadcastInDim S8x1024x64 ![0, 1, 2] bcast_S8x1x64_S8x1024x64_0_1_2
        (broadcastInDim S8x1x64 ![0, 2] bcast_S8x64_S8x1x64_0_2 c) (ix3 b l n) = c (ix2 b n) := by
  rw [broadcastInDim_apply _ bcast_S8x1x64_S8x1024x64_0_1_2 _ (ix3 b l n) (ix3 b (0 : Fin 1) n) (fun a => by
    match a with
    | ⟨0, _⟩ => show b.val = if (8 : Nat) = 1 then 0 else b.val; rw [if_neg (by decide)]
    | ⟨1, _⟩ => show 0 = if (1 : Nat) = 1 then 0 else l.val; rw [if_pos rfl]
    | ⟨2, _⟩ => show n.val = if (64 : Nat) = 1 then 0 else n.val; rw [if_neg (by decide)])]
  rw [broadcastInDim_apply _ bcast_S8x64_S8x1x64_0_2 _ (ix3 b (0 : Fin 1) n) (ix2 b n) (fun a => by
    match a with
    | ⟨0, _⟩ => show b.val = if (8 : Nat) = 1 then 0 else b.val; rw [if_neg (by decide)]
    | ⟨1, _⟩ => show n.val = if (64 : Nat) = 1 then 0 else n.val; rw [if_neg (by decide)])]

/-- A per-batch value spread over the 64 columns reads the batch's value. -/
private theorem batchSpread_apply (s : FVec Ideal S8 .f32) (b : Fin 8) (n : Fin 64) :
    broadcastInDim S8x64 ![0, 1] bcast_S8x1_S8x64_0_1
        (broadcastInDim S8x1 ![0] bcast_S8_S8x1_0 s) (ix2 b n) = s (ix1 b) := by
  rw [broadcastInDim_apply _ bcast_S8x1_S8x64_0_1 _ (ix2 b n) (ix2 b (0 : Fin 1)) (fun a => by
    match a with
    | ⟨0, _⟩ => show b.val = if (8 : Nat) = 1 then 0 else b.val; rw [if_neg (by decide)]
    | ⟨1, _⟩ => show 0 = if (1 : Nat) = 1 then 0 else n.val; rw [if_pos rfl])]
  rw [broadcastInDim_apply _ bcast_S8_S8x1_0 _ (ix2 b (0 : Fin 1)) (ix1 b) (fun a => by
    match a with
    | ⟨0, _⟩ => show b.val = if (8 : Nat) = 1 then 0 else b.val; rw [if_neg (by decide)])]

/-- The host's quotient at an index is the extended reals' division of the elements. -/
private theorem hostDivf_apply {s : Shape} (x y : FVec Ideal s .f32) (i : s.Idx) :
    Host.divf x y i = Ideal.div (x i) (y i) := rfl

/-- The 0/1 float of a comparison bit. -/
private theorem bit_float (p : Prop) [Decidable p] :
    (FloatOps.uitofp (F := Ideal) .f32 (BitVec.ofBool (decide p)) : EReal) = if p then 1 else 0 := by
  by_cases h : p
  · simp [h, FloatOps.uitofp]
  · simp [h, FloatOps.uitofp]

/-! ## The marked rows, the degree, the scaled transpose, the centred labels -/

theorem v30_apply (V0 : Valuation τ sig (Elt Ideal)) (b : Fin 8) (l : Fin 1024) :
    res_main_v30 V0 (ix2 b l) = rowHas (Labb V0 b) l := by
  unfold res_main_v30
  show FloatOps.uitofp (F := Ideal) .f32 (Ideal.cmp .ogt _ _) = _
  rw [sumLast64_apply, splat2_apply]
  exact bit_float _

theorem v46_apply (V0 : Valuation τ sig (Elt Ideal)) (b : Fin 8) (l : Fin 1024) :
    res_main_v46 V0 (ix2 b l) = degR (gb V0 b) l := by
  unfold res_main_v46
  rw [hostDivf_apply, addf_apply, splat2_apply, splat2_apply, sumLast1024_apply]
  simp only [v26_apply]
  rfl

theorem v50_apply (V0 : Valuation τ sig (Elt Ideal)) (b : Fin 8) (l m : Fin 1024) :
    res_main_v50 V0 (ix3 b l m) = degR (gb V0 b) l * attnR (gb V0 b) m l := by
  unfold res_main_v50
  rw [mulf_apply, rowSpread1024_apply, transpose_ix3_021_apply, v46_apply, v26_apply]

theorem v53_apply (V0 : Valuation τ sig (Elt Ideal)) (b : Fin 8) (l : Fin 1024) (n : Fin 64) :
    res_main_v53 V0 (ix3 b l n) = degR (gb V0 b) l * centred (Labb V0 b) l n := by
  unfold res_main_v53
  rw [mulf_apply, mulf_apply, subf_apply, rowSpread64_apply, rowSpread64_apply, colSpread_apply, hostDivf_apply,
    batchSpread_apply, sumRows64_apply, sumBatch_apply, v46_apply, v30_apply]
  simp only [v30_apply]
  rfl

/-- One propagation step of the run, on any iterate. -/
def refStep (V0 : Valuation τ sig (Elt Ideal)) (u : FVec Ideal S8x1024x64 .f32) : FVec Ideal S8x1024x64 .f32 :=
  addf (Host.dotGeneral (φ₁ := .f32) (φ₂ := .f32) dot_S8x1024x1024_S8x1024x64_S8x1024x64_2_1_1_2_0_0 none (res_main_v50 V0) u)
    (res_main_v53 V0 : FVec Ideal S8x1024x64 .f32)

/-! ## One propagation step

The batched product contracts the left operand's last axis with the right operand's middle axis: at (b, l, n) it is
the sum over m of the left operand at (b, l, m) times the right at (b, m, n). -/

private theorem stepLhs_0 (i : S8x1024x64.Idx) (q : dot_S8x1024x1024_S8x1024x64_S8x1024x64_2_1_1_2_0_0.contr.Idx) :
    (dot_S8x1024x1024_S8x1024x64_S8x1024x64_2_1_1_2_0_0.lhsIdx i q 0).val = (i 0).val := by
  unfold DotDims.lhsIdx
  rw [dif_pos (show (0 : Fin S8x1024x1024.rank) ∈ dot_S8x1024x1024_S8x1024x64_S8x1024x64_2_1_1_2_0_0.lhsBatch by decide)]
  rfl
private theorem stepLhs_1 (i : S8x1024x64.Idx) (q : dot_S8x1024x1024_S8x1024x64_S8x1024x64_2_1_1_2_0_0.contr.Idx) :
    (dot_S8x1024x1024_S8x1024x64_S8x1024x64_2_1_1_2_0_0.lhsIdx i q 1).val = (i 1).val := by
  unfold DotDims.lhsIdx
  rw [dif_neg (show ¬(1 : Fin S8x1024x1024.rank) ∈ dot_S8x1024x1024_S8x1024x64_S8x1024x64_2_1_1_2_0_0.lhsBatch by decide), dif_pos (show (1 : Fin S8x1024x1024.rank) ∈ dot_S8x1024x1024_S8x1024x64_S8x1024x64_2_1_1_2_0_0.lhsNonContracting by decide)]
  rfl
private theorem stepLhs_2 (i : S8x1024x64.Idx) (q : dot_S8x1024x1024_S8x1024x64_S8x1024x64_2_1_1_2_0_0.contr.Idx) :
    (dot_S8x1024x1024_S8x1024x64_S8x1024x64_2_1_1_2_0_0.lhsIdx i q 2).val = (q ⟨0, by decide⟩).val :=
  dot_S8x1024x1024_S8x1024x64_S8x1024x64_2_1_1_2_0_0.lhsIdx_val_of_single rfl i q
private theorem stepRhs_0 (i : S8x1024x64.Idx) (q : dot_S8x1024x1024_S8x1024x64_S8x1024x64_2_1_1_2_0_0.contr.Idx) :
    (dot_S8x1024x1024_S8x1024x64_S8x1024x64_2_1_1_2_0_0.rhsIdx i q 0).val = (i 0).val := by
  unfold DotDims.rhsIdx
  rw [dif_pos (show (0 : Fin S8x1024x64.rank) ∈ dot_S8x1024x1024_S8x1024x64_S8x1024x64_2_1_1_2_0_0.rhsBatch by decide)]
  rfl
private theorem stepRhs_1 (i : S8x1024x64.Idx) (q : dot_S8x1024x1024_S8x1024x64_S8x1024x64_2_1_1_2_0_0.contr.Idx) :
    (dot_S8x1024x1024_S8x1024x64_S8x1024x64_2_1_1_2_0_0.rhsIdx i q 1).val = (q ⟨0, by decide⟩).val :=
  dot_S8x1024x1024_S8x1024x64_S8x1024x64_2_1_1_2_0_0.rhsIdx_val_of_single rfl i q
private theorem stepRhs_2 (i : S8x1024x64.Idx) (q : dot_S8x1024x1024_S8x1024x64_S8x1024x64_2_1_1_2_0_0.contr.Idx) :
    (dot_S8x1024x1024_S8x1024x64_S8x1024x64_2_1_1_2_0_0.rhsIdx i q 2).val = (i 2).val := by
  unfold DotDims.rhsIdx
  rw [dif_neg (show ¬(2 : Fin S8x1024x64.rank) ∈ dot_S8x1024x1024_S8x1024x64_S8x1024x64_2_1_1_2_0_0.rhsBatch by decide), dif_pos (show (2 : Fin S8x1024x64.rank) ∈ dot_S8x1024x1024_S8x1024x64_S8x1024x64_2_1_1_2_0_0.rhsNonContracting by decide)]
  rfl

/-- The batched product read at (b, l, n). -/
private theorem stepDot_apply (x : FVec Ideal S8x1024x1024 .f32) (u : FVec Ideal S8x1024x64 .f32)
    (b : Fin 8) (l : Fin 1024) (n : Fin 64) :
    Host.dotGeneral (F := Ideal) (φ₁ := .f32) (φ₂ := .f32) dot_S8x1024x1024_S8x1024x64_S8x1024x64_2_1_1_2_0_0 none x u (ix3 b l n)
      = ∑ m : Fin 1024, x (ix3 b l m) * u (ix3 b m n) := by
  simp only [Host.dotGeneral]
  rw [Ideal.dotGeneral_apply, ← Equiv.sum_comp (ValueIdx.contrEquiv1 dot_S8x1024x1024_S8x1024x64_S8x1024x64_2_1_1_2_0_0 1024 rfl rfl).symm]
  refine Finset.sum_congr rfl fun k _ => ?_
  have hk := ValueIdx.contrEquiv1_symm_val dot_S8x1024x1024_S8x1024x64_S8x1024x64_2_1_1_2_0_0 1024 rfl rfl k
  have el : dot_S8x1024x1024_S8x1024x64_S8x1024x64_2_1_1_2_0_0.lhsIdx (ix3 b l n) ((ValueIdx.contrEquiv1 dot_S8x1024x1024_S8x1024x64_S8x1024x64_2_1_1_2_0_0 1024 rfl rfl).symm k) = ix3 b l k :=
    funext fun a => Fin.ext (by
      match a with
      | ⟨0, _⟩ => exact stepLhs_0 _ _
      | ⟨1, _⟩ => exact stepLhs_1 _ _
      | ⟨2, _⟩ => exact (stepLhs_2 _ _).trans hk)
  have er : dot_S8x1024x1024_S8x1024x64_S8x1024x64_2_1_1_2_0_0.rhsIdx (ix3 b l n) ((ValueIdx.contrEquiv1 dot_S8x1024x1024_S8x1024x64_S8x1024x64_2_1_1_2_0_0 1024 rfl rfl).symm k) = ix3 b k n :=
    funext fun a => Fin.ext (by
      match a with
      | ⟨0, _⟩ => exact stepRhs_0 _ _
      | ⟨1, _⟩ => exact (stepRhs_1 _ _).trans hk
      | ⟨2, _⟩ => exact stepRhs_2 _ _)
  rw [el, er]

theorem refStep_apply (V0 : Valuation τ sig (Elt Ideal)) (u : FVec Ideal S8x1024x64 .f32) (b : Fin 8) (l : Fin 1024) (n : Fin 64) :
    refStep V0 u (ix3 b l n)
      = stepR (degR (gb V0 b)) (attnR (gb V0 b)) (fun l n => degR (gb V0 b) l * centred (Labb V0 b) l n)
          (fun m' n' => u (ix3 b m' n')) l n := by
  unfold refStep
  rw [addf_apply, stepDot_apply, v53_apply]
  simp only [v50_apply]
  rfl

/-- A step depends on its iterate only through batch `b`'s entries. -/
private theorem refStep_of_eq (V0 : Valuation τ sig (Elt Ideal)) (u : FVec Ideal S8x1024x64 .f32)
    (w : Fin 1024 → Fin 64 → EReal) (b : Fin 8) (hu : ∀ m n, u (ix3 b m n) = w m n) (l : Fin 1024) (n : Fin 64) :
    refStep V0 u (ix3 b l n)
      = stepR (degR (gb V0 b)) (attnR (gb V0 b)) (fun l n => degR (gb V0 b) l * centred (Labb V0 b) l n) w l n := by
  rw [refStep_apply]
  have e : (fun m' n' => u (ix3 b m' n')) = w := funext fun m' => funext fun n' => hu m' n'
  rw [e]

/-- The run's result term: six steps from the zero splat, the residual added after the third. -/
def refTerm (V0 : Valuation τ sig (Elt Ideal)) : FVec Ideal S8x1024x64 .f32 :=
  refStep V0 (refStep V0 (refStep V0 (addf (refStep V0 (refStep V0 (refStep V0
    (broadcastInDim S8x1024x64 ![] bcast_S_S8x1024x64 (constant S_ .f32 0x00000000#32))))) (V0 (Proc.devRef .tc main_arg2) : FVec Ideal S8x1024x64 .f32))))

/-- The zero splat over the whole 8 × 1024 × 64 array reads 0 everywhere. -/
private theorem zeroSplat_apply (b : Fin 8) (l : Fin 1024) (n : Fin 64) :
    broadcastInDim S8x1024x64 ![] bcast_S_S8x1024x64 (constant (F := Ideal) S_ .f32 0x00000000#32) (ix3 b l n) = 0 := by
  rw [broadcastInDim_apply _ bcast_S_S8x1024x64 _ (ix3 b l n) ix0 (fun a => a.elim0)]
  exact Ideal.ofBits_zero_f32

theorem refTerm_apply (V0 : Valuation τ sig (Elt Ideal)) (b : Fin 8) (l : Fin 1024) (n : Fin 64) :
    refTerm V0 (ix3 b l n) = refOut (Xb V0 b) (Wm V0) (βv V0) (Labb V0 b) (Predb V0 b) l n := by
  show refTerm V0 (ix3 b l n) = iterR (degR (gb V0 b)) (attnR (gb V0 b))
    (fun l n => degR (gb V0 b) l * centred (Labb V0 b) l n) (Predb V0 b) l n
  unfold refTerm iterR
  have h0 : ∀ (m : Fin 1024) (n : Fin 64),
      broadcastInDim S8x1024x64 ![] bcast_S_S8x1024x64 (constant (F := Ideal) S_ .f32 0x00000000#32) (ix3 b m n)
        = (fun _ _ => (0 : EReal)) m n := fun m n => zeroSplat_apply b m n
  have h1 := refStep_of_eq V0 _ _ b h0
  have h2 := refStep_of_eq V0 _ _ b h1
  have h3 := refStep_of_eq V0 _ _ b h2
  have h4 : ∀ (m : Fin 1024) (n : Fin 64),
      addf (refStep V0 (refStep V0 (refStep V0
          (broadcastInDim S8x1024x64 ![] bcast_S_S8x1024x64 (constant S_ .f32 0x00000000#32)))))
        (V0 (Proc.devRef .tc main_arg2) : FVec Ideal S8x1024x64 .f32) (ix3 b m n)
        = (fun l n => stepR (degR (gb V0 b)) (attnR (gb V0 b)) (fun l n => degR (gb V0 b) l * centred (Labb V0 b) l n)
            (stepR (degR (gb V0 b)) (attnR (gb V0 b)) (fun l n => degR (gb V0 b) l * centred (Labb V0 b) l n)
              (stepR (degR (gb V0 b)) (attnR (gb V0 b)) (fun l n => degR (gb V0 b) l * centred (Labb V0 b) l n)
                (fun _ _ => 0))) l n + Predb V0 b l n) m n := fun m n => by
    rw [addf_apply, h3]
    rfl
  have h5 := refStep_of_eq V0 _ _ b h4
  have h6 := refStep_of_eq V0 _ _ b h5
  exact refStep_of_eq V0 _ _ b h6 l n

end Cert.ReferenceIdeal.RefValue

end
-- ==== Proof.KerReadA.lean ====
/-
  The kernel's last-chunk arithmetic read at an index, first half: from the accumulated projection and the bias row to the
  shifted exponentials, their row sums, the reciprocal, the degree and the transposed softmax.
-/
import proofs.«422942_j61220463837889_3_alg».proof.Proof.Spec
import proofs.«422942_j61220463837889_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen
open Idealize.ShloMosaic Idealize.ShloMosaic.TcCoe Idealize.ShloMosaic.ValueIdx Idealize.SL.Sem Cert.LabelSpread

/-- The accumulator and the bias row as plain functions, and the masked Gram matrix the kernel forms from them. -/
def accM (acc : Vec Ideal S1024x1024 .f32) : Fin 1024 → Fin 1024 → EReal := fun l h => acc (ix2 l h)
def biasV (bias : Vec Ideal S1x1024 .f32) : Fin 1024 → EReal := fun h => bias (ix2 (0 : Fin 1) h)
def gk (acc : Vec Ideal S1024x1024 .f32) (bias : Vec Ideal S1x1024 .f32) : Fin 1024 → Fin 1024 → EReal :=
  masked (gramSplit fun l h => accM acc l h + biasV bias h)

/-! ## Layout operations of the column shapes, read at an index -/

section Layout
variable {α : Type}

/-- An `[a, 1]` array broadcast to `[a, b]` reads, at `(p, c)`, the operand's one column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The bias row, cast to its own shape and broadcast over the rows, reads the row at the column. -/
private theorem biasRow_apply (bias : Vec Ideal S1x1024 .f32) (h1 : S1x1024.ShapeCasts S1x1024)
    (h2 : S1x1024.Broadcasts S1024x1024) (l h : Fin 1024) :
    broadcastTo S1024x1024 (shapeCast S1x1024 bias h1) h2 (ix2 l h) = bias (ix2 (0 : Fin 1) h) := by
  rw [shapeCast_self]
  exact broadcastTo_1b_ab_apply bias h2 l h

/-- A vector cast to a column and broadcast over the columns reads, at `(l, m)`, the vector at `l`. -/
private theorem column_apply (v : FVec Ideal S1024 .f32) (h1 : S1024.ShapeCasts S1024x1)
    (h2 : S1024x1.Broadcasts S1024x1024) (l m : Fin 1024) :
    broadcastTo S1024x1024 (shapeCast S1024x1 v h1) h2 (ix2 l m) = v (ix1 l) :=
  (broadcastTo_a1_ab_apply (shapeCast S1024x1 v h1) h2 l m).trans (shapeCast_a_a1_apply v h1 l 0)

/-! ## The product contracting the second axis of both operands -/

private theorem lhs_gram_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
private theorem lhs_gram_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
private theorem rhs_gram_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
private theorem rhs_gram_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Into the zero accumulator, the product read at `(l, m)` is the sum over `h` of row `l` of the left operand against
    row `m` of the right one. -/
private theorem rowDot_apply {φ₁ φ₂ : FTy} (a : FVec Ideal S1024x1024 φ₁) (b : FVec Ideal S1024x1024 φ₂) (l m : Fin 1024) :
    matmul dot_S1024x1024_S1024x1024_S1024x1024_1_1_0_0_n_n none a b (constant S1024x1024 .f32 0x00000000#32) (ix2 l m)
      = ∑ h : Fin 1024, a (ix2 l h) * b (ix2 m h) := by
  refine (Ideal.matmul_constant_zero_apply dot_S1024x1024_S1024x1024_S1024x1024_1_1_0_0_n_n none a b (ix2 l m)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 l m)
      ((contrEquiv1 dot_S1024x1024_S1024x1024_S1024x1024_1_1_0_0_n_n 1024 rfl rfl).symm k) = ix2 l k :=
    funext fun c => Fin.ext (by
      match c with
      | ⟨0, _⟩ => exact lhs_gram_0 _ _
      | ⟨1, _⟩ => exact (lhs_gram_1 _ _).trans hk)
  have er : dot_S1024x1024_S1024x1024_S1024x1024_1_1_0_0_n_n.rhsIdx (ix2 l m)
      ((contrEquiv1 dot_S1024x1024_S1024x1024_S1024x1024_1_1_0_0_n_n 1024 rfl rfl).symm k) = ix2 m k :=
    funext fun c => Fin.ext (by
      match c with
      | ⟨0, _⟩ => exact rhs_gram_0 _ _
      | ⟨1, _⟩ => exact (rhs_gram_1 _ _).trans hk)
  rw [el, er]

/-! ## The diagonal mask -/

/-- Two 32-bit words of numbers below 1024 are equal exactly when the numbers are. -/
private theorem word_eq_iff (l m : Fin 1024) : BitVec.ofNat 32 l.val = BitVec.ofNat 32 m.val ↔ l = m := by
  constructor
  · intro h
    have h' := congrArg BitVec.toNat h
    rw [BitVec.toNat_ofNat, BitVec.toNat_ofNat] at h'
    have hl := l.isLt
    have hm := m.isLt
    exact Fin.ext (by omega)
  · rintro rfl; rfl

/-- The select on "row number equals column number", both read off the two iotas broadcast over the matrix, is the
    `if` on the two coordinates. -/
private theorem diagSelect_apply {α : Type} (hi0 : S1024x1.Iotas .tc 32 [0]) (hi1 : S1x1024.Iotas .tc 32 [1])
    (hb0 : S1024x1.Broadcasts S1024x1024) (hb1 : S1x1024.Broadcasts S1024x1024) (a b : S1024x1024.Idx → α)
    (l m : Fin 1024) :
    select (cmpi .eq (broadcastTo S1024x1024 (iota .tc S1024x1 32 [0] hi0) hb0)
        (broadcastTo S1024x1024 (iota .tc S1x1024 32 [1] hi1) hb1)) a b (ix2 l m)
      = if l = m then a (ix2 l m) else b (ix2 l m) := by
  have e0 : broadcastTo S1024x1024 (iota .tc S1024x1 32 [0] hi0) hb0 (ix2 l m) = BitVec.ofNat 32 l.val :=
    (broadcastTo_a1_ab_apply _ hb0 l m).trans (iota_single_apply .tc S1024x1 32 0 hi0 (ix2 l (0 : Fin 1)))
  have e1 : broadcastTo S1024x1024 (iota .tc S1x1024 32 [1] hi1) hb1 (ix2 l m) = BitVec.ofNat 32 m.val :=
    (broadcastTo_1b_ab_apply _ hb1 l m).trans (iota_single_apply .tc S1x1024 32 1 hi1 (ix2 (0 : Fin 1) m))
  show Scalar.select (IntOp.cmpi .eq (broadcastTo S1024x1024 (iota .tc S1024x1 32 [0] hi0) hb0 (ix2 l m))
      (broadcastTo S1024x1024 (iota .tc S1x1024 32 [1] hi1) hb1 (ix2 l m))) (a (ix2 l m)) (b (ix2 l m)) = _
  rw [e0, e1]
  by_cases hlm : l = m
  · subst hlm
    rw [if_pos rfl]
    show Scalar.select (BitVec.ofBool (BitVec.ofNat 32 l.val == BitVec.ofNat 32 l.val)) _ _ = _
    rw [beq_self_eq_true]
    exact select_one _ _
  · rw [if_neg hlm]
    have hne : (BitVec.ofNat 32 l.val == BitVec.ofNat 32 m.val) = false :=
      beq_eq_false_iff_ne.mpr fun h => hlm ((word_eq_iff l m).mp h)
    show Scalar.select (BitVec.ofBool (BitVec.ofNat 32 l.val == BitVec.ofNat 32 m.val)) _ _ = _
    rw [hne]
    exact select_zero _ _

/-! ## A row's maximum and a row's sum -/

/-- The index over row `l` with `m` put on the reduced axis is `(l, m)`. -/
private theorem lift_row (h : S1024x1024.Reduces [1] S1024) (l m : Fin 1024) : h.lift (ix1 l) m = ix2 l m :=
  funext fun c => Fin.ext (by
    match c with
    | ⟨0, _⟩ => rfl
    | ⟨1, _⟩ => rfl)

/-- The maximum over the second axis from the word of `-∞`, read at row `l`: the fold of `max` over the row. -/
private theorem rowMax_apply (x : FVec Ideal S1024x1024 .f32) (h : S1024x1024.Reduces [1] S1024) (hφ : FKind.Formats .f32)
    (hacc : (0xFF800000#32 : BitVec 32) = FKind.maximumf.neutral .f32 hφ) (l : Fin 1024) :
    multiReduction (F := Ideal) .maximumf [1] S1024 x 0xFF800000#32 h hφ hacc (ix1 l)
      = (Finset.univ : Finset (Fin 1024)).fold max floorV (fun m => x (ix2 l m)) := by
  refine (Ideal.multiReduction_maximumf_single x _ h hφ hacc (ix1 l)).trans ?_
  show (Finset.univ : Finset (Fin 1024)).fold max floorV (fun m => x (h.lift (ix1 l) m)) = _
  exact congrArg (fun f => (Finset.univ : Finset (Fin 1024)).fold max floorV f) (funext fun m => congrArg x (lift_row h l m))

/-- The sum over the second axis, read at row `l`: the sum of the row. -/
private theorem rowSum_apply (x : FVec Ideal S1024x1024 .f32) (h : S1024x1024.Reduces [1] S1024) (hφ : FKind.Formats .f32)
    (hacc : (0x00000000#32 : BitVec 32) = FKind.add.neutral .f32 hφ) (l : Fin 1024) :
    multiReduction (F := Ideal) .add [1] S1024 x 0x00000000#32 h hφ hacc (ix1 l) = ∑ m : Fin 1024, x (ix2 l m) := by
  refine (Ideal.multiReduction_add_single x _ h hφ hacc (ix1 l)).trans ?_
  show ∑ m : Fin 1024, x (h.lift (ix1 l) m) = _
  exact Finset.sum_congr rfl fun m _ => congrArg x (lift_row h l m)

/-! ## The kernel's stages as vectors -/

/-- `s`: the accumulator plus the bias row broadcast over the rows. -/
private def sVec (acc : Vec Ideal S1024x1024 .f32) (bias : Vec Ideal S1x1024 .f32) : FVec Ideal S1024x1024 .f32 :=
  addf acc (broadcastTo S1024x1024 (shapeCast S1x1024 bias shapeCasts_S1x1024_S1x1024) broadcasts_S1x1024_S1024x1024)

/-- The cross term `s (s − s)ᵀ`. -/
private def crossVec (s : FVec Ideal S1024x1024 .f32) : FVec Ideal S1024x1024 .f32 :=
  matmul dot_S1024x1024_S1024x1024_S1024x1024_1_1_0_0_n_n none (truncf .bf16 s bitsLt_bf16_f32)
    (truncf .bf16 (subf s s) bitsLt_bf16_f32) (constant S1024x1024 .f32 0x00000000#32)

/-- `s sᵀ`, plus the cross term, plus the cross term transposed. -/
private def gramVec (s : FVec Ideal S1024x1024 .f32) : FVec Ideal S1024x1024 .f32 :=
  addf (addf (matmul dot_S1024x1024_S1024x1024_S1024x1024_1_1_0_0_n_n none (truncf .bf16 s bitsLt_bf16_f32)
      (truncf .bf16 s bitsLt_bf16_f32) (constant S1024x1024 .f32 0x00000000#32)) (crossVec s))
    (transpose S1024x1024 [1, 0] (crossVec s) transposes_S1024x1024_p1_0_S1024x1024)

/-- 1e5 taken off the diagonal. -/
private def maskVec (g : FVec Ideal S1024x1024 .f32) : FVec Ideal S1024x1024 .f32 :=
  select (cmpi .eq (broadcastTo S1024x1024 (iota .tc S1024x1 32 [0] iota_S1024x1_d0_w32) broadcasts_S1024x1_S1024x1024)
      (broadcastTo S1024x1024 (iota .tc S1x1024 32 [1] iota_S1x1024_d1_w32) broadcasts_S1x1024_S1024x1024))
    (subf g (broadcast S1024x1024 (Scalar.ofBits .f32 0x47C35000#32))) g

/-- The exponentials of a matrix's entries less their row's maximum. -/
private def expVec (g : FVec Ideal S1024x1024 .f32) : FVec Ideal S1024x1024 .f32 :=
  exp (subf g (broadcastTo S1024x1024 (shapeCast S1024x1
    (multiReduction .maximumf [1] S1024 g 0xFF800000#32 reduces_S1024x1024_S1024 (.inl rfl) rfl)
    shapeCasts_S1024_S1024x1) broadcasts_S1024x1_S1024x1024))

private theorem sVec_apply (acc : Vec Ideal S1024x1024 .f32) (bias : Vec Ideal S1x1024 .f32) (l h : Fin 1024) :
    sVec acc bias (ix2 l h) = accM acc l h + biasV bias h := by
  unfold sVec
  exact congrArg (acc (ix2 l h) + ·) (biasRow_apply bias _ _ l h)

private theorem crossVec_apply (s : FVec Ideal S1024x1024 .f32) (l m : Fin 1024) :
    crossVec s (ix2 l m) = ∑ h : Fin 1024, s (ix2 l h) * (s (ix2 m h) - s (ix2 m h)) := by
  unfold crossVec
  exact rowDot_apply _ _ l m

private theorem gramVec_apply (s : FVec Ideal S1024x1024 .f32) (l m : Fin 1024) :
    gramVec s (ix2 l m) = gramSplit (fun l h => s (ix2 l h)) l m := by
  unfold gramVec
  exact congrArg₂ (· + ·) (congrArg₂ (· + ·) (rowDot_apply _ _ l m) (crossVec_apply s l m))
    ((transpose_ix2_apply _ _ l m).trans (crossVec_apply s m l))

private theorem maskVec_apply (g : FVec Ideal S1024x1024 .f32) (l m : Fin 1024) :
    maskVec g (ix2 l m) = masked (fun l m => g (ix2 l m)) l m := by
  unfold maskVec
  exact diagSelect_apply _ _ _ _ _ g l m

private theorem expVec_apply (g : FVec Ideal S1024x1024 .f32) (l m : Fin 1024) :
    expVec g (ix2 l m) = expo (fun l m => g (ix2 l m)) l m := by
  unfold expVec
  exact congrArg (fun t => Ideal.exp (g (ix2 l m) - t)) ((column_apply _ _ _ l m).trans (rowMax_apply g _ _ _ l))

/-- The masked Gram matrix the kernel forms, entry by entry. -/
private theorem gVec_apply (acc : Vec Ideal S1024x1024 .f32) (bias : Vec Ideal S1x1024 .f32) :
    (fun l m => maskVec (gramVec (sVec acc bias)) (ix2 l m)) = gk acc bias := by
  funext l m
  rw [maskVec_apply]
  have hg : (fun l m => gramVec (sVec acc bias) (ix2 l m)) = gramSplit fun l h => accM acc l h + biasV bias h := by
    funext l m
    rw [gramVec_apply]
    exact congrArg (fun s => gramSplit s l m) (funext fun l => funext fun h => sVec_apply acc bias l h)
  rw [hg]
  rfl

/-- The first payload is those stages composed. -/
private theorem pay4_eq (acc : Vec Ideal S1024x1024 .f32) (bias : Vec Ideal S1x1024 .f32) :
    k0_pay4 acc bias = expVec (maskVec (gramVec (sVec acc bias))) := rfl

theorem pay4_apply (acc : Vec Ideal S1024x1024 .f32) (bias : Vec Ideal S1x1024 .f32) (l m : Fin 1024) :
    k0_pay4 acc bias (ix2 l m) = expo (gk acc bias) l m := by
  rw [pay4_eq, expVec_apply, gVec_apply]

theorem pay5_apply (acc : Vec Ideal S1024x1024 .f32) (bias : Vec Ideal S1x1024 .f32) (l : Fin 1024) :
    k0_pay5 acc bias (ix2 l (0 : Fin 1)) = rowsum (expo (gk acc bias)) l := by
  unfold k0_pay5
  refine (shapeCast_a_a1_apply _ _ l 0).trans ?_
  refine (rowSum_apply _ _ _ _ l).trans ?_
  exact Finset.sum_congr rfl fun m _ => pay4_apply acc bias l m

theorem pay6_apply (acc : Vec Ideal S1024x1024 .f32) (bias : Vec Ideal S1x1024 .f32) (l : Fin 1024) :
    k0_pay6 acc bias (ix2 l (0 : Fin 1)) = invK (gk acc bias) l := by
  unfold k0_pay6
  exact congrArg (Ideal.div unit) (pay5_apply acc bias l)

theorem pay7_apply (acc : Vec Ideal S1024x1024 .f32) (bias : Vec Ideal S1x1024 .f32) (l : Fin 1024) :
    k0_pay7 acc bias (ix2 l (0 : Fin 1)) = degK (gk acc bias) l := by
  unfold k0_pay7
  exact congrArg₂ (fun r i => Ideal.div unit (r * i + tiny)) (pay5_apply acc bias l) (pay6_apply acc bias l)

/-- The transposed softmax: entry (l, m) is the softmax's entry (m, l). -/
theorem pay8_apply (acc : Vec Ideal S1024x1024 .f32) (bias : Vec Ideal S1x1024 .f32) (l m : Fin 1024) :
    k0_pay8 acc bias (ix2 l m) = attnK (gk acc bias) m l := by
  unfold k0_pay8
  refine (transpose_ix2_apply _ _ l m).trans ?_
  exact congrArg₂ (· * ·) (pay4_apply acc bias m l)
    ((broadcastTo_a1_ab_apply _ _ m l).trans (pay6_apply acc bias m))

end Cert.KernelIdeal.KerValue

end
-- ==== Proof.KerReadB.lean ====
/-
  The kernel's arithmetic read at an index, second half: the reset and one chunk's accumulation of the projection, the label
  statistics and the five propagation steps, and the stored block as one function of the accumulator, the bias and the label blocks.
-/
import proofs.«422942_j61220463837889_3_alg».proof.Proof.KerReadA
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen
open Idealize.ShloMosaic Idealize.ShloMosaic.TcCoe Idealize.ShloMosaic.ValueIdx Idealize.SL.Sem Cert.LabelSpread

/-- A label block as a plain function. -/
def labM (lab : Vec Ideal S1x1024x64 .f32) : Fin 1024 → Fin 64 → EReal := fun l n => lab (ix3 (0 : Fin 1) l n)

/-! ## Layout operations of column shapes read at an index -/

/-- A vector cast to a one-column matrix reads, at row `i`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis of a matrix -/

/-- Over row `i` of the result, the source index with column `k` put back. -/
private theorem lift_axis1 {a b : ℕ} (h : (⟨2, ![a, b]⟩ : Shape).Reduces [1] ⟨1, ![a]⟩) (i : Fin a) (k : Fin b) :
    h.lift (ix1 i) k = ix2 i k := by
  funext c
  refine Fin.ext ?_
  match c with
  | ⟨0, _⟩ => rfl
  | ⟨1, _⟩ => rfl

/-- Over column `j` of the result, the source index with row `k` put back. -/
private theorem lift_axis0 {a b : ℕ} (h : (⟨2, ![a, b]⟩ : Shape).Reduces [0] ⟨1, ![b]⟩) (j : Fin b) (k : Fin a) :
    h.lift (ix1 j) k = ix2 k j := by
  funext c
  refine Fin.ext ?_
  match c with
  | ⟨0, _⟩ => rfl
  | ⟨1, _⟩ => rfl

/-- A sum along the columns: entry `i` is the sum of row `i`. -/
private theorem sumAxis1_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ k : Fin b, src (ix2 i k) :=
  (Ideal.multiReduction_add_single src 0x00000000#32 h hφ hacc (ix1 i)).trans
    (Finset.sum_congr rfl fun k _ => congrArg src (lift_axis1 h i k))

/-- A sum along the rows: entry `j` is the sum of column `j`. -/
private theorem sumAxis0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ k : Fin a, src (ix2 k j) :=
  (Ideal.multiReduction_add_single src 0x00000000#32 h hφ hacc (ix1 j)).trans
    (Finset.sum_congr rfl fun k _ => congrArg src (lift_axis0 h j k))

/-! ## The two matrix products read at an index -/

/-- The chunk product's operand indices: row of the result and contraction position on the left,
    column of the result and contraction position on the right (both operands contract their axis 1). -/
private theorem dotA_lhs_0 (j : S1024x1024.Idx) (k : dot_S1024x1024_S1024x1024_S1024x1024_1_1_0_0_n_n.contr.Idx) :
    (dot_S1024x1024_S1024x1024_S1024x1024_1_1_0_0_n_n.lhsIdx j k 0 : ℕ) = j 0 := by
  simp [DotDims.lhsIdx, dot_S1024x1024_S1024x1024_S1024x1024_1_1_0_0_n_n]; rfl
private theorem dotA_lhs_1 (j : S1024x1024.Idx) (k : dot_S1024x1024_S1024x1024_S1024x1024_1_1_0_0_n_n.contr.Idx) :
    (dot_S1024x1024_S1024x1024_S1024x1024_1_1_0_0_n_n.lhsIdx j k 1 : ℕ) = k ⟨0, by decide⟩ :=
  dot_S1024x1024_S1024x1024_S1024x1024_1_1_0_0_n_n.lhsIdx_val_of_single rfl j k
private theorem dotA_rhs_0 (j : S1024x1024.Idx) (k : dot_S1024x1024_S1024x1024_S1024x1024_1_1_0_0_n_n.contr.Idx) :
    (dot_S1024x1024_S1024x1024_S1024x1024_1_1_0_0_n_n.rhsIdx j k 0 : ℕ) = j 1 := by
  simp [DotDims.rhsIdx, dot_S1024x1024_S1024x1024_S1024x1024_1_1_0_0_n_n]; rfl
private theorem dotA_rhs_1 (j : S1024x1024.Idx) (k : dot_S1024x1024_S1024x1024_S1024x1024_1_1_0_0_n_n.contr.Idx) :
    (dot_S1024x1024_S1024x1024_S1024x1024_1_1_0_0_n_n.rhsIdx j k 1 : ℕ) = k ⟨0, by decide⟩ :=
  dot_S1024x1024_S1024x1024_S1024x1024_1_1_0_0_n_n.rhsIdx_val_of_single rfl j k

/-- A chunk's product into the zero splat: entry `(l, h)` sums `L l k · R h k` over the 1024 features `k`. -/
private theorem matmulA_apply (L R : FVec Ideal S1024x1024 .bf16) (l h : Fin 1024) :
    matmul dot_S1024x1024_S1024x1024_S1024x1024_1_1_0_0_n_n none L R (constant (F := Ideal) S1024x1024 .f32 0x00000000#32) (ix2 l h)
      = ∑ k : Fin 1024, L (ix2 l k) * R (ix2 h k) := by
  refine (Ideal.matmul_constant_zero_apply dot_S1024x1024_S1024x1024_S1024x1024_1_1_0_0_n_n none L R (ix2 l h)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  congr 1
  · refine congrArg L (funext fun a => Fin.ext ?_)
    match a with
    | ⟨0, _⟩ => exact dotA_lhs_0 _ _
    | ⟨1, _⟩ => exact (dotA_lhs_1 _ _).trans hk
  · refine congrArg R (funext fun a => Fin.ext ?_)
    match a with
    | ⟨0, _⟩ => exact dotA_rhs_0 _ _
    | ⟨1, _⟩ => exact (dotA_rhs_1 _ _).trans hk

/-- The propagation product's operand indices: the left operand contracts its axis 1, the right its axis 0. -/
private theorem dotB_lhs_0 (j : S1024x64.Idx) (k : dot_S1024x1024_S1024x64_S1024x64_1_0_0_1_n_n.contr.Idx) :
    (dot_S1024x1024_S1024x64_S1024x64_1_0_0_1_n_n.lhsIdx j k 0 : ℕ) = j 0 := by
  simp [DotDims.lhsIdx, dot_S1024x1024_S1024x64_S1024x64_1_0_0_1_n_n]; rfl
private theorem dotB_lhs_1 (j : S1024x64.Idx) (k : dot_S1024x1024_S1024x64_S1024x64_1_0_0_1_n_n.contr.Idx) :
    (dot_S1024x1024_S1024x64_S1024x64_1_0_0_1_n_n.lhsIdx j k 1 : ℕ) = k ⟨0, by decide⟩ :=
  dot_S1024x1024_S1024x64_S1024x64_1_0_0_1_n_n.lhsIdx_val_of_single rfl j k
private theorem dotB_rhs_0 (j : S1024x64.Idx) (k : dot_S1024x1024_S1024x64_S1024x64_1_0_0_1_n_n.contr.Idx) :
    (dot_S1024x1024_S1024x64_S1024x64_1_0_0_1_n_n.rhsIdx j k 0 : ℕ) = k ⟨0, by decide⟩ :=
  dot_S1024x1024_S1024x64_S1024x64_1_0_0_1_n_n.rhsIdx_val_of_single rfl j k
private theorem dotB_rhs_1 (j : S1024x64.Idx) (k : dot_S1024x1024_S1024x64_S1024x64_1_0_0_1_n_n.contr.Idx) :
    (dot_S1024x1024_S1024x64_S1024x64_1_0_0_1_n_n.rhsIdx j k 1 : ℕ) = j 1 := by
  simp [DotDims.rhsIdx, dot_S1024x1024_S1024x64_S1024x64_1_0_0_1_n_n]; rfl

/-- The propagation product into the zero splat: entry `(l, n)` sums `A l m · U m n` over the 1024 rows `m`. -/
private theorem matmulB_apply (A : FVec Ideal S1024x1024 .bf16) (U : FVec Ideal S1024x64 .bf16) (l : Fin 1024) (n : Fin 64) :
    matmul dot_S1024x1024_S1024x64_S1024x64_1_0_0_1_n_n none A U (constant (F := Ideal) S1024x64 .f32 0x00000000#32) (ix2 l n)
      = ∑ m : Fin 1024, A (ix2 l m) * U (ix2 m n) := by
  refine (Ideal.matmul_constant_zero_apply dot_S1024x1024_S1024x64_S1024x64_1_0_0_1_n_n none A U (ix2 l n)).trans ?_
  rw [← Equiv.sum_comp (contrEquiv1 dot_S1024x1024_S1024x64_S1024x64_1_0_0_1_n_n 1024 rfl rfl).symm]
  refine Finset.sum_congr rfl fun m _ => ?_
  have hm := contrEquiv1_symm_val dot_S1024x1024_S1024x64_S1024x64_1_0_0_1_n_n 1024 rfl rfl m
  congr 1
  · refine congrArg A (funext fun a => Fin.ext ?_)
    match a with
    | ⟨0, _⟩ => exact dotB_lhs_0 _ _
    | ⟨1, _⟩ => exact (dotB_lhs_1 _ _).trans hm
  · refine congrArg U (funext fun a => Fin.ext ?_)
    match a with
    | ⟨0, _⟩ => exact (dotB_rhs_0 _ _).trans hm
    | ⟨1, _⟩ => exact dotB_rhs_1 _ _

/-! ## One propagation step, the row marker and the centred labels, as vectors -/

/-- One step on vectors: the transposed softmax times the iterate, scaled by the degree column, plus the first iterate. -/
private def stepV (d : FVec Ideal S1024x1 .f32) (At : FVec Ideal S1024x1024 .bf16) (Db u : FVec Ideal S1024x64 .f32) :
    FVec Ideal S1024x64 .f32 :=
  addf (mulf (broadcastTo S1024x64 d broadcasts_S1024x1_S1024x64)
    (matmul dot_S1024x1024_S1024x64_S1024x64_1_0_0_1_n_n none At (truncf .bf16 u bitsLt_bf16_f32)
      (constant (F := Ideal) S1024x64 .f32 0x00000000#32))) Db

private theorem stepV_apply (d : FVec Ideal S1024x1 .f32) (At : FVec Ideal S1024x1024 .bf16) (Db u : FVec Ideal S1024x64 .f32)
    (l : Fin 1024) (n : Fin 64) :
    stepV d At Db u (ix2 l n) = d (ix2 l (0 : Fin 1)) * (∑ m : Fin 1024, At (ix2 l m) * u (ix2 m n)) + Db (ix2 l n) := by
  unfold stepV
  refine congrArg (· + Db (ix2 l n)) ?_
  refine congrArg₂ (· * ·) (broadcastTo_a1_ab_apply d _ l n) ?_
  exact matmulB_apply At _ l n

/-- 1 where the row's label mass exceeds ½, else 0: the comparison's bit widened and converted. -/
private def markV (rs : FVec Ideal S1024x1 .f32) : FVec Ideal S1024x1 .f32 :=
  sitofp .f32 (extui 32 (cmpf .ogt rs (broadcast S1024x1 (Scalar.ofBits (F := Ideal) .f32 0x3F000000#32))) natLt_1_32)

/-- The first iterate: the degree column times the labels centred by the column sums over the marked-row count, on the marked rows. -/
private def dbV (d : FVec Ideal S1024x1 .f32) (sup : FVec Ideal S1024x64 .f32) (rs : FVec Ideal S1024x1 .f32) :
    FVec Ideal S1024x64 .f32 :=
  mulf (broadcastTo S1024x64 d broadcasts_S1024x1_S1024x64)
    (mulf
      (subf sup
        (broadcastTo S1024x64
          (divf
            (shapeCast S1x64 (multiReduction .add [0] S64 sup 0x00000000#32 reduces_S1024x64_S64 (.inl rfl) rfl) shapeCasts_S64_S1x64)
            (broadcastTo S1x64
              (shapeCast S1x1 (multiReduction .add [0] S1 (markV rs) 0x00000000#32 reduces_S1024x1_S1 (.inl rfl) rfl) shapeCasts_S1_S1x1)
              broadcasts_S1x1_S1x64))
          broadcasts_S1x64_S1024x64))
      (broadcastTo S1024x64 (markV rs) broadcasts_S1024x1_S1024x64))

/-- The five steps are the step applied five times from the first iterate, the residual added after the second. -/
private theorem pay11_eq (d : FVec Ideal S1024x1 .f32) (At : FVec Ideal S1024x1024 .bf16) (sup : FVec Ideal S1024x64 .f32)
    (rs : FVec Ideal S1024x1 .f32) (pred : Vec Ideal S1x1024x64 .f32) :
    k0_pay11 d At sup rs pred
      = stepV d At (dbV d sup rs) (stepV d At (dbV d sup rs) (stepV d At (dbV d sup rs)
          (addf (stepV d At (dbV d sup rs) (stepV d At (dbV d sup rs) (dbV d sup rs)))
            (shapeCast S1024x64 pred shapeCasts_S1x1024x64_S1024x64)))) := rfl

/-- The marker at row `l` is the specification's, once the row-sum column is the labels' row sums. -/
private theorem markV_apply (sup : FVec Ideal S1024x64 .f32) (rs : FVec Ideal S1024x1 .f32)
    (hrs : ∀ l : Fin 1024, rs (ix2 l (0 : Fin 1)) = ∑ n : Fin 64, sup (ix2 l n)) (l : Fin 1024) :
    markV rs (ix2 l (0 : Fin 1)) = rowHas (fun l n => sup (ix2 l n)) l := by
  unfold markV rowHas half
  rw [sitofp_apply, extui_apply, cmpf_apply, broadcast_apply, hrs l]
  show (((BitVec.setWidth 32 (Ideal.cmp .ogt (∑ n : Fin 64, sup (ix2 l n)) (Ideal.ofBits .f32 0x3F000000#32))).toInt : ℝ) : EReal) = _
  unfold Ideal.cmp
  by_cases h : Ideal.ofBits .f32 0x3F000000#32 < ∑ n : Fin 64, sup (ix2 l n)
  · simp [h]
  · simp [h]

/-- The first iterate at `(l, n)`: each broadcast, cast and sum read at its index, innermost last. -/
private theorem dbV_apply (d : FVec Ideal S1024x1 .f32) (sup : FVec Ideal S1024x64 .f32) (rs : FVec Ideal S1024x1 .f32)
    (hrs : ∀ l : Fin 1024, rs (ix2 l (0 : Fin 1)) = ∑ n : Fin 64, sup (ix2 l n)) (l : Fin 1024) (n : Fin 64) :
    dbV d sup rs (ix2 l n) = d (ix2 l (0 : Fin 1)) * centred (fun l n => sup (ix2 l n)) l n := by
  unfold dbV
  show _ = d (ix2 l (0 : Fin 1)) * ((sup (ix2 l n)
      - Ideal.div (∑ l' : Fin 1024, sup (ix2 l' n)) (∑ l' : Fin 1024, rowHas (fun l n => sup (ix2 l n)) l'))
        * rowHas (fun l n => sup (ix2 l n)) l)
  refine congrArg₂ (· * ·) (broadcastTo_a1_ab_apply d _ l n) ?_
  refine congrArg₂ (· * ·) ?_ ((broadcastTo_a1_ab_apply (markV rs) _ l n).trans (markV_apply sup rs hrs l))
  refine congrArg (sup (ix2 l n) - ·) ?_
  refine (broadcastTo_1b_ab_apply _ _ l n).trans ?_
  refine congrArg₂ Ideal.div ?_ ?_
  · exact (shapeCast_a_1a_apply _ _ 0 n).trans (sumAxis0_apply sup _ _ _ n)
  · exact (broadcastTo_a1_ab_apply _ _ 0 n).trans ((shapeCast_a_1a_apply _ _ 0 0).trans
      ((sumAxis0_apply (markV rs) _ _ _ 0).trans (Finset.sum_congr rfl fun l' _ => markV_apply sup rs hrs l')))

/-! ## From vectors to the specification's functions -/

/-- A 1024 × 64 vector as a plain function of its two coordinates. -/
private def fn (v : FVec Ideal S1024x64 .f32) : Fin 1024 → Fin 64 → EReal := fun l n => v (ix2 l n)

private theorem fn_stepV (d : FVec Ideal S1024x1 .f32) (At : FVec Ideal S1024x1024 .bf16) (Db u : FVec Ideal S1024x64 .f32) :
    fn (stepV d At Db u) = stepK (fun l => d (ix2 l (0 : Fin 1))) (fun m l => At (ix2 l m)) (fn Db) (fn u) :=
  funext fun l => funext fun n => stepV_apply d At Db u l n

private theorem fn_addf (a b : FVec Ideal S1024x64 .f32) : fn (addf a b) = fun l n => fn a l n + fn b l n := rfl

/-! ## The payloads -/

/-- The reset stores 0. -/
theorem pay1_apply (l h : Fin 1024) : (k0_pay1 (F := Ideal)) (ix2 l h) = 0 := by
  unfold k0_pay1
  rw [shapeCast_self]
  exact Ideal.ofBits_zero_f32

/-- One chunk: what the accumulator held plus the chunk's products summed over its 1024 features. -/
theorem pay2_apply (x : Vec Ideal S1x1024x1024 .f32) (w : Vec Ideal S1024x1024 .bf16) (a : Vec Ideal S1024x1024 .f32) (l h : Fin 1024) :
    k0_pay2 x w a (ix2 l h) = a (ix2 l h) + ∑ k : Fin 1024, x (ix3 (0 : Fin 1) l k) * w (ix2 h k) := by
  unfold k0_pay2
  rw [shapeCast_self]
  refine congrArg (a (ix2 l h) + ·) ?_
  refine (matmulA_apply _ _ l h).trans ?_
  refine Finset.sum_congr rfl fun k _ => ?_
  congr 1
  · exact shapeCast_1ab_ab_apply x _ l k
  · rw [shapeCast_self]

/-- The label block squeezed, and its row sums. -/
theorem pay9_apply (lab : Vec Ideal S1x1024x64 .f32) (l : Fin 1024) (n : Fin 64) :
    k0_pay9 lab (ix2 l n) = labM lab l n := by
  unfold k0_pay9
  exact shapeCast_1ab_ab_apply lab _ l n
theorem pay10_apply (lab : Vec Ideal S1x1024x64 .f32) (l : Fin 1024) :
    k0_pay10 lab (ix2 l (0 : Fin 1)) = ∑ n : Fin 64, labM lab l n := by
  unfold k0_pay10
  refine (shapeCast_a_a1_apply _ _ l 0).trans ?_
  refine (sumAxis1_apply (k0_pay9 lab) _ _ _ l).trans ?_
  exact Finset.sum_congr rfl fun n _ => pay9_apply lab l n

/-- The five steps over any degree column `d`, transposed softmax `At`, labels `sup` with their row sums `rs`, and residual block. -/
theorem pay11_apply (d : FVec Ideal S1024x1 .f32) (At : FVec Ideal S1024x1024 .bf16) (sup : FVec Ideal S1024x64 .f32)
    (rs : FVec Ideal S1024x1 .f32) (pred : Vec Ideal S1x1024x64 .f32)
    (hrs : ∀ l : Fin 1024, rs (ix2 l (0 : Fin 1)) = ∑ n : Fin 64, sup (ix2 l n)) (l : Fin 1024) (n : Fin 64) :
    k0_pay11 d At sup rs pred (ix2 l n)
      = iterK (fun l => d (ix2 l (0 : Fin 1))) (fun m l => At (ix2 l m))
          (fun l n => d (ix2 l (0 : Fin 1)) * centred (fun l n => sup (ix2 l n)) l n) (labM pred) l n := by
  have hDb : fn (dbV d sup rs) = fun l n => d (ix2 l (0 : Fin 1)) * centred (fun l n => sup (ix2 l n)) l n :=
    funext fun l => funext fun n => dbV_apply d sup rs hrs l n
  have hP : fn (shapeCast S1024x64 pred shapeCasts_S1x1024x64_S1024x64) = labM pred :=
    funext fun l => funext fun n => shapeCast_1ab_ab_apply pred _ l n
  show fn (k0_pay11 d At sup rs pred) l n = _
  rw [pay11_eq, fn_stepV, fn_stepV, fn_stepV, fn_addf, fn_stepV, fn_stepV, hDb, hP]
  rfl

/-- The block the last chunk's point stores, as one function of what it loads. -/
theorem tail_apply (acc : Vec Ideal S1024x1024 .f32) (bias : Vec Ideal S1x1024 .f32) (lab pred : Vec Ideal S1x1024x64 .f32)
    (l : Fin 1024) (n : Fin 64) :
    k0_pay3 (k0_pay11 (k0_pay7 acc bias) (k0_pay8 acc bias) (k0_pay9 lab) (k0_pay10 lab) pred) (ix3 (0 : Fin 1) l n)
      = kerOut (accM acc) (biasV bias) (labM lab) (labM pred) l n := by
  unfold k0_pay3
  refine (shapeCast_ab_1ab_apply _ _ 0 l n).trans ?_
  have hrs : ∀ l : Fin 1024, k0_pay10 lab (ix2 l (0 : Fin 1)) = ∑ n : Fin 64, k0_pay9 lab (ix2 l n) := fun l =>
    (pay10_apply lab l).trans (Finset.sum_congr rfl fun n _ => (pay9_apply lab l n).symm)
  refine (pay11_apply (k0_pay7 acc bias) (k0_pay8 acc bias) (k0_pay9 lab) (k0_pay10 lab) pred hrs l n).trans ?_
  have hA : (fun m l : Fin 1024 => k0_pay8 acc bias (ix2 l m)) = attnK (gk acc bias) :=
    funext fun m => funext fun l => pay8_apply acc bias l m
  have hL : (fun (l : Fin 1024) (n : Fin 64) => k0_pay9 lab (ix2 l n)) = labM lab :=
    funext fun l => funext fun n => pay9_apply lab l n
  rw [hL]
  simp only [pay7_apply]
  rw [hA]
  rfl

end Cert.KernelIdeal.KerValue

end
-- ==== Proof.KerRun.lean ====
/-
  The kernel's run, read. The grid is 8 batches × 3 chunks of 1024 features. A carried accumulator is reset at a batch's
  first chunk and takes each chunk's share of `X Wᵀ`; at the third chunk the body computes the label spreading from it
  and stores the batch's output block, which is written back there and nowhere else. So the result array ends, entry
  (b, l, n), at the kernel's arrangement of the spreading on batch `b` (Spec.lean's `kerOut` over `chunkAcc`).
-/
import proofs.«422942_j61220463837889_3_alg».proof.Proof.Gen.KernelIdeal.Value
import proofs.«422942_j61220463837889_3_alg».proof.Proof.KerReadB
import Idealize.ShloMosaic.Lib.Pipeline.Value
import Idealize.ShloMosaic.Lib.StableHlo.Run
import Idealize.ShloMosaic.Lib.Tactic

set_option maxRecDepth 16384

noncomputable section

namespace Cert.KernelIdeal.KerRun

open Cert.KernelIdeal Cert.KernelIdeal.Gen Cert.KernelIdeal.Value Cert.KernelIdeal.KerValue
open Idealize.ShloMosaic Idealize.ShloMosaic.TcCoe Idealize.ShloMosaic.ValueIdx Idealize.SL.Sem Idealize.ShloMosaic.Tactic Cert.LabelSpread
open Idealize.ShloMosaic.Pipeline (Dat)

variable (m : (ℓ : Loc nD τ sig) → Buf (Elt Ideal) ℓ) (ρ : Dev nD → PrngReg)

/-- The block index maps over the grid: point `t` is chunk `t % 3` of batch `t / 3`. -/
theorem idx_facts : ∀ t : Fin cfg0.N,
    win0_0.index t (0 : Fin 3) = t.val / 3 ∧ win0_0.index t (1 : Fin 3) = 0 ∧ win0_0.index t (2 : Fin 3) = t.val % 3
    ∧ win0_1.index t (0 : Fin 2) = 0 ∧ win0_1.index t (1 : Fin 2) = t.val % 3
    ∧ win0_2.index t (0 : Fin 2) = 0 ∧ win0_2.index t (1 : Fin 2) = 0
    ∧ win0_3.index t (0 : Fin 3) = t.val / 3 ∧ win0_3.index t (1 : Fin 3) = 0 ∧ win0_3.index t (2 : Fin 3) = 0
    ∧ win0_4.index t (0 : Fin 3) = t.val / 3 ∧ win0_4.index t (1 : Fin 3) = 0 ∧ win0_4.index t (2 : Fin 3) = 0
    ∧ win0_5.index t (0 : Fin 3) = t.val / 3 ∧ win0_5.index t (1 : Fin 3) = 0 ∧ win0_5.index t (2 : Fin 3) = 0 :=
  (by decide +kernel : ∀ t : Fin grid0.N, _)

/-- The arguments as plain functions: a batch's samples, the weights, the bias, a batch's labels and residual. -/
def Xk (c : Dev nD) (b : Fin 8) : Fin 1024 → Fin 3072 → EReal := fun l k => m ((c : Thread nD τ).loc main_arg0) (ix3 b l k)
def Wk (c : Dev nD) : Fin 1024 → Fin 3072 → EReal := fun h k => m ((c : Thread nD τ).loc main_arg3) (ix2 h k)
def βk (c : Dev nD) : Fin 1024 → EReal := fun h => m ((c : Thread nD τ).loc main_arg4) (ix1 h)
def Labk (c : Dev nD) (b : Fin 8) : Fin 1024 → Fin 64 → EReal := fun l n => m ((c : Thread nD τ).loc main_arg1) (ix3 b l n)
def Predk (c : Dev nD) (b : Fin 8) : Fin 1024 → Fin 64 → EReal := fun l n => m ((c : Thread nD τ).loc main_arg2) (ix3 b l n)

/-- A point's batch and chunk. -/
def batchOf (t : Fin cfg0.N) : Fin 8 := ⟨t.val / 3, by have := t.isLt; have : cfg0.N = 24 := N_0; omega⟩
def chunkOf (t : Fin cfg0.N) : Fin 3 := ⟨t.val % 3, Nat.mod_lt _ (by decide)⟩

/-- The input blocks at a point, read at an index of the arguments. -/
theorem blk0_apply (c : Dev nD) (t : Fin cfg0.N) (l k : Fin 1024) :
    (iblk m c 0 t : Vec Ideal S1x1024x1024 .f32) (ix3 (0 : Fin 1) l k) = Xk m c (batchOf t) l (feat (chunkOf t) k) := by
  obtain ⟨e0, e1, e2, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val / 3; omega
  | ⟨1, _⟩ => show win0_0.index t (1 : Fin 3) * 1024 + 1 * l.val = l.val; omega
  | ⟨2, _⟩ => show win0_0.index t (2 : Fin 3) * 1024 + 1 * k.val = t.val % 3 * 1024 + k.val; omega

/-- The weights narrowed to sixteen bits are the weights, and the bias as one row is the bias. -/
theorem V_v0 (c : Dev nD) : (V m c main_v0 : S1024x3072.Idx → EReal) = (m ((c : Thread nD τ).loc main_arg3) : S1024x3072.Idx → EReal) := by
  dsimp only [V, hostOps0]; after_results; rfl

theorem V_v1 (c : Dev nD) : (V m c main_v1 : S1x1024.Idx → EReal) = shapeCast S1x1024 (m ((c : Thread nD τ).loc main_arg4) : S1024.Idx → EReal) shapeCasts_S1024_S1x1024 := by
  dsimp only [V, hostOps0]; after_results; rfl

theorem blk1_apply (c : Dev nD) (t : Fin cfg0.N) (h k : Fin 1024) :
    (iblk m c 1 t : Vec Ideal S1024x1024 .bf16) (ix2 h k) = Wk m c h (feat (chunkOf t) k) := by
  obtain ⟨-, -, -, e0, e1, -⟩ := idx_facts t
  unfold iblk
  rw [View.read_apply]
  show (V m c main_v0 : S1024x3072.Idx → EReal) _ = m ((c : Thread nD τ).loc main_arg3) _
  rw [V_v0]
  congr 1
  funext a
  apply Fin.ext
  match a with
  | ⟨0, _⟩ => show win0_1.index t (0 : Fin 2) * 1024 + 1 * h.val = h.val; omega
  | ⟨1, _⟩ => show win0_1.index t (1 : Fin 2) * 1024 + 1 * k.val = t.val % 3 * 1024 + k.val; omega

theorem blk2_apply (c : Dev nD) (t : Fin cfg0.N) (h : Fin 1024) :
    (iblk m c 2 t : Vec Ideal S1x1024 .f32) (ix2 (0 : Fin 1) h) = βk m c h := by
  obtain ⟨-, -, -, -, -, e0, e1, -⟩ := idx_facts t
  unfold iblk
  rw [View.read_apply]
  show (V m c main_v1 : S1x1024.Idx → EReal) _ = m ((c : Thread nD τ).loc main_arg4) _
  rw [V_v1]
  refine (shapeCast_a_1a_apply _ _ _ _).trans ?_
  refine congrArg (fun i => m ((c : Thread nD τ).loc main_arg4) (ix1 i)) (Fin.ext ?_)
  show win0_2.index t (1 : Fin 2) * 1024 + 1 * h.val = h.val
  omega

theorem blk3_apply (c : Dev nD) (t : Fin cfg0.N) (l : Fin 1024) (n : Fin 64) :
    (iblk m c 3 t : Vec Ideal S1x1024x64 .f32) (ix3 (0 : Fin 1) l n) = Labk m c (batchOf t) l n := by
  obtain ⟨-, -, -, -, -, -, -, e0, e1, e2, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_3.index t (0 : Fin 3) * 1 + 1 * 0 = t.val / 3; omega
  | ⟨1, _⟩ => show win0_3.index t (1 : Fin 3) * 1024 + 1 * l.val = l.val; omega
  | ⟨2, _⟩ => show win0_3.index t (2 : Fin 3) * 64 + 1 * n.val = n.val; omega

theorem blk4_apply (c : Dev nD) (t : Fin cfg0.N) (l : Fin 1024) (n : Fin 64) :
    (iblk m c 4 t : Vec Ideal S1x1024x64 .f32) (ix3 (0 : Fin 1) l n) = Predk m c (batchOf t) l n := by
  obtain ⟨-, -, -, -, -, -, -, -, -, -, e0, e1, e2, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_4.index t (0 : Fin 3) * 1 + 1 * 0 = t.val / 3; omega
  | ⟨1, _⟩ => show win0_4.index t (1 : Fin 3) * 1024 + 1 * l.val = l.val; omega
  | ⟨2, _⟩ => show win0_4.index t (2 : Fin 3) * 64 + 1 * n.val = n.val; omega

section Pieces
variable {F : FTy → Type} [FloatOps F]
/-! ## What each control case leaves, as the body's arithmetic of what it loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- First chunk: the reset's zero, read back, plus the chunk's products. -/
theorem scratch_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1024x1024 .f32) (harg8 : arg8.IsWhole) (hc0 : cond0_0 i) (hc1 : ¬cond0_1 i) (x0 : Vec F S1x1024x1024 .f32) (x1 : Vec F S1024x1024 .bf16) (x2 : Vec F S1x1024 .f32) (x3 : Vec F S1x1024x64 .f32) (x4 : Vec F S1x1024x64 .f32) :
    sout0_A_0 c i arg2 harg2 arg3 harg3 arg4 harg4 arg5 harg5 arg6 harg6 arg7 harg7 arg8 harg8 hc0 hc1 x0 x1 x2 x3 x4 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, View.ld_unit_zero (S := S1x1024x1024) hz3, View.ld_unit_zero (S := S1024x1024) hz2]

/-- Second chunk: the chunk's products over what the accumulator held. -/
theorem scratch_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1024x1024 .f32) (harg8 : arg8.IsWhole) (hc0 : ¬cond0_0 i) (hc1 : ¬cond0_1 i) (x0 : Vec F S1x1024x1024 .f32) (x1 : Vec F S1024x1024 .bf16) (x2 : Vec F S1x1024 .f32) (x3 : Vec F S1x1024x64 .f32) (x4 : Vec F S1x1024x64 .f32) (xs0 : Vec F S1024x1024 .f32) :
    sout0_B_0 c i arg2 harg2 arg3 harg3 arg4 harg4 arg5 harg5 arg6 harg6 arg7 harg7 arg8 harg8 hc0 hc1 x0 x1 x2 x3 x4 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg8.read_unread, View.ld_unit_zero (S := S1x1024x1024) hz3, View.ld_unit_zero (S := S1024x1024) hz2]

/-- Third chunk: the same for the accumulator, -/
theorem scratch_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1024x1024 .f32) (harg8 : arg8.IsWhole) (hc0 : ¬cond0_0 i) (hc1 : cond0_1 i) (x0 : Vec F S1x1024x1024 .f32) (x1 : Vec F S1024x1024 .bf16) (x2 : Vec F S1x1024 .f32) (x3 : Vec F S1x1024x64 .f32) (x4 : Vec F S1x1024x64 .f32) (xs0 : Vec F S1024x1024 .f32) :
    sout0_C_0 c i arg2 harg2 arg3 harg3 arg4 harg4 arg5 harg5 arg6 harg6 arg7 harg7 arg8 harg8 hc0 hc1 x0 x1 x2 x3 x4 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg8.read_unread, View.ld_unit_zero (S := S1x1024x1024) hz3, View.ld_unit_zero (S := S1024x1024) hz2]

/-- and the output block is the spreading computed from the accumulator just stored, the bias row and the label blocks. -/
theorem out_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x1024x64 .f32) (harg7 : arg7.IsWhole) (arg8 : Memref sig .tc .vmem S1024x1024 .f32) (harg8 : arg8.IsWhole) (hc0 : ¬cond0_0 i) (hc1 : cond0_1 i) (x0 : Vec F S1x1024x1024 .f32) (x1 : Vec F S1024x1024 .bf16) (x2 : Vec F S1x1024 .f32) (x3 : Vec F S1x1024x64 .f32) (x4 : Vec F S1x1024x64 .f32) (xs0 : Vec F S1024x1024 .f32) :
    out0_C_5 c i arg2 harg2 arg3 harg3 arg4 harg4 arg5 harg5 arg6 harg6 arg7 harg7 arg8 harg8 hc0 hc1 x0 x1 x2 x3 x4 xs0 = k0_pay3 (k0_pay11 (k0_pay7 (k0_pay2 x0 x1 xs0) x2) (k0_pay8 (k0_pay2 x0 x1 xs0) x2) (k0_pay9 x3) (k0_pay10 x3) x4) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread, harg6.read_unread, harg8.read_unread, View.readCov_unit_zero (S := S1024x1024) _ hz2, View.ld_unit_zero (S := S1x1024x1024) hz3, View.ld_unit_zero (S := S1024x1024) hz2, View.ld_unit_zero (S := S1x1024) hz2, View.ld_unit_zero (S := S1x1024x64) hz3]

end Pieces

/-! ## The accumulator after a point -/

/-- At a batch's first chunk the accumulator is reset and then takes the chunk's share: it does not depend on what it held. -/
theorem scr_first (c : Dev nD) (t : Fin cfg0.N) (h0 : t.val % 3 = 0) :
    (outsAt0 m c t.val t.isLt).2 = k0_pay2 (iblk m c 0 t) (iblk m c 1 t) (k0_pay1 (F := Ideal)) := by
  have h1 : ¬ t.val % 3 = 2 := by omega
  rw [outsAt0_A m c t h0 h1]; dsimp only; exact scratch_A ..

/-- At a later chunk it takes the chunk's share over what the point before left. -/
theorem scr_next (c : Dev nD) (t : Fin cfg0.N) (h0 : ¬ t.val % 3 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 3 = 2
  · rw [outsAt0_C m c t h0 h1]; dsimp only; exact scratch_C ..
  · rw [outsAt0_B m c t h0 h1]; dsimp only; exact scratch_B ..

/-- One point's products, summed over its 1024 features, are its chunk's share of the projection of its batch. -/
theorem chunk_read (c : Dev nD) (t : Fin cfg0.N) (l h : Fin 1024) (x : Vec Ideal S1x1024x1024 .f32) (w : Vec Ideal S1024x1024 .bf16)
    (hx : x = iblk m c 0 t) (hw : w = iblk m c 1 t) :
    ∑ k : Fin 1024, x (ix3 (0 : Fin 1) l k) * w (ix2 h k) = chunk (Xk m c (batchOf t)) (Wk m c) (chunkOf t) l h := by
  subst hx hw
  unfold chunk
  exact Finset.sum_congr rfl fun k _ => by rw [blk0_apply, blk1_apply]

/-- After a batch's third chunk the accumulator holds the three shares added from 0 in order. -/
theorem acc_last (c : Dev nD) (t : Fin cfg0.N) (h2 : t.val % 3 = 2) (l h : Fin 1024) :
    k0_pay2 (iblk m c 0 t) (iblk m c 1 t) (outsAt0 m c (t.val - 1) (Nat.lt_of_le_of_lt (Nat.sub_le _ _) t.isLt)).2 (ix2 l h)
      = chunkAcc (Xk m c (batchOf t)) (Wk m c) l h := by
  have hN : cfg0.N = 24 := N_0
  have ht := t.isLt
  let t1 : Fin cfg0.N := ⟨t.val - 1, by omega⟩
  let t0 : Fin cfg0.N := ⟨t.val - 1 - 1, by omega⟩
  have hb1 : batchOf t1 = batchOf t := Fin.ext (by show (t.val - 1) / 3 = t.val / 3; omega)
  have hb0 : batchOf t0 = batchOf t := Fin.ext (by show (t.val - 1 - 1) / 3 = t.val / 3; omega)
  have hc2 : chunkOf t = 2 := Fin.ext (by show t.val % 3 = 2; omega)
  have hc1 : chunkOf t1 = 1 := Fin.ext (by show (t.val - 1) % 3 = 1; omega)
  have hc0 : chunkOf t0 = 0 := Fin.ext (by show (t.val - 1 - 1) % 3 = 0; omega)
  rw [pay2_apply, chunk_read m c t l h _ _ rfl rfl]
  rw [show (outsAt0 m c (t.val - 1) (Nat.lt_of_le_of_lt (Nat.sub_le _ _) t.isLt)).2 = (outsAt0 m c t1.val t1.isLt).2 from rfl,
    scr_next m c t1 (by show ¬ (t.val - 1) % 3 = 0; omega), pay2_apply, chunk_read m c t1 l h _ _ rfl rfl]
  rw [show (outsAt0 m c (t1.val - 1) (Nat.lt_of_le_of_lt (Nat.sub_le _ _) t1.isLt)).2 = (outsAt0 m c t0.val t0.isLt).2 from rfl,
    scr_first m c t0 (by show (t.val - 1 - 1) % 3 = 0; omega), pay2_apply, chunk_read m c t0 l h _ _ rfl rfl, pay1_apply]
  rw [hb1, hb0, hc2, hc1, hc0]
  rfl

/-- The kernel's arrangement of the label spreading on batch `b` of the arguments. -/
def resAt (c : Dev nD) (b : Fin 8) : Fin 1024 → Fin 64 → EReal :=
  kerOut (chunkAcc (Xk m c b) (Wk m c)) (βk m c) (Labk m c b) (Predk m c b)

/-- What the third chunk's point leaves in the output block: the spreading of its batch, entry by entry. -/
theorem out_last (c : Dev nD) (t : Fin cfg0.N) (h2 : t.val % 3 = 2) (l : Fin 1024) (n : Fin 64) :
    (outsAt0 m c t.val t.isLt).1 (ix3 (0 : Fin 1) l n) = resAt m c (batchOf t) l n := by
  have h0 : ¬ t.val % 3 = 0 := by omega
  rw [outsAt0_C m c t h0 h2]; dsimp only
  rw [out_C, tail_apply]
  unfold resAt
  have e1 : accM (k0_pay2 (iblk m c 0 t) (iblk m c 1 t) (outsAt0 m c (t.val - 1) (Nat.lt_of_le_of_lt (Nat.sub_le _ _) t.isLt)).2)
      = chunkAcc (Xk m c (batchOf t)) (Wk m c) := funext fun l => funext fun h => acc_last m c t h2 l h
  have e2 : biasV (iblk m c 2 t) = βk m c := funext fun h => blk2_apply m c t h
  have e3 : labM (iblk m c 3 t) = Labk m c (batchOf t) := funext fun l => funext fun n => blk3_apply m c t l n
  have e4 : labM (iblk m c 4 t) = Predk m c (batchOf t) := funext fun l => funext fun n => blk4_apply m c t l n
  rw [e1, e2, e3, e4]

/-- The result array as one function of the arguments: entry (b, l, n) is batch `b`'s spreading at (l, n). -/
def outG (c : Dev nD) : Buf (Elt Ideal) ((c : Thread nD τ).loc main_v2) :=
  fun i => resAt m c ⟨(i 0).val, (i 0).isLt⟩ ⟨(i 1).val, (i 1).isLt⟩ ⟨(i 2).val, (i 2).isLt⟩

/-- The points that write back are the third chunks, and each writes its batch's block of that function. -/
theorem flushed_eq (c : Dev nD) (t : Fin cfg0.N) (hf : (cfg0.win 5).flush t = true) :
    (dats m 0 c).flushed 5 t = ((cfg0.win 5).blk t).view.read (Elt Ideal) (outG m c) := by
  have h2 : t.val % 3 = 2 := (flush0_5 t).mp hf
  obtain ⟨-, -, -, -, -, -, -, -, -, -, -, -, -, e0, e1, e2⟩ := idx_facts t
  rw [flushed5]
  have key : ∀ y : S1x1024x64.Idx, (outsAt0 m c t.val t.isLt).1 y = outG m c (((cfg0.win 5).blk t).view.emb y) := by
    intro y
    obtain ⟨z, l, n, rfl⟩ : ∃ (z : Fin 1) (l : Fin 1024) (n : Fin 64), y = ix3 z l n := ⟨y 0, y 1, y 2, eq_ix3 y⟩
    obtain rfl : z = 0 := Subsingleton.elim _ _
    refine (out_last m c t h2 l n).trans ?_
    unfold outG
    congr 1 <;> apply Fin.ext
    · show t.val / 3 = win0_5.index t (0 : Fin 3) * 1 + 1 * 0; omega
    · show l.val = win0_5.index t (1 : Fin 3) * 1024 + 1 * l.val; omega
    · show n.val = win0_5.index t (2 : Fin 3) * 64 + 1 * n.val; omega
  funext y
  exact key y

/-- Entry (b, l, n) lies in the block the third chunk of batch `b` writes back. -/
theorem covered (c : Dev nD) (i : S8x1024x64.Idx) :
    ∃ t : Fin cfg0.N, (cfg0.win 5).flush t = true ∧ i ∈ ((cfg0.win 5).blk t).view.set := by
  have hN : cfg0.N = 24 := N_0
  have hi0 : (i 0).val < 8 := (i 0).isLt
  have hi1 : (i 1).val < 1024 := (i 1).isLt
  have hi2 : (i 2).val < 64 := (i 2).isLt
  let t : Fin cfg0.N := ⟨3 * (i 0).val + 2, by omega⟩
  have hq : t.val / 3 = (i 0).val := by show (3 * (i 0).val + 2) / 3 = _; omega
  obtain ⟨-, -, -, -, -, -, -, -, -, -, -, -, -, e0, e1, e2⟩ := idx_facts t
  refine ⟨t, (flush0_5 t).mpr (by show (3 * (i 0).val + 2) % 3 = 2; omega), ?_⟩
  show i ∈ ((View.whole main_v2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-- So the array ends holding that function: every entry is covered, and a block is written once. -/
theorem final5 (c : Dev nD) : (dats m 0 c).arrAt 5 cfg0.N = outG m c :=
  (dats m 0 c).arrAt_eq_of_cover 5 (outG m c) (flushed_eq m c) (covered c)

/-- The run, read: the result array at that function, the arguments unchanged. -/
theorem run : θ_run defs (onTc (τ := τ) (main (F := Ideal))) ⟨m, fun _ => 0, ρ⟩ fun r => ∀ c : Dev nD,
      r.2.mem ((c : Thread nD τ).loc main_v2) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.KernelIdeal.KerRun

end
-- ==== Proof.Finite.lean ====
/-
  Under the precondition the samples, the weights and the bias are real numbers, entry by entry.
-/
import proofs.«422942_j61220463837889_3_alg».proof.Defs
import proofs.«422942_j61220463837889_3_alg».proof.Proof.Gen.Pre_finite_inputs
import Idealize.ShloMosaic.Lib.ReduceAll
import Idealize.ShloMosaic.Lib.ValueIdx

noncomputable section

namespace Cert.KernelIdeal.Finite

open Cert.KernelIdeal Idealize.ShloMosaic Idealize.ShloMosaic.TcCoe Idealize.ShloMosaic.ValueIdx Idealize.SL.Sem

/-- The scalar shape has exactly one index. -/
private instance scalarIdx_subsingleton : Subsingleton Cert.Pre_finite_inputs.S_.Idx :=
  ⟨fun a b => funext fun d => d.elim0⟩

/-- The float word 0x7F800000 denotes +∞. -/
private theorem inf_word : Ideal.ofBits .f32 0x7F800000#32 = (⊤ : EReal) := by
  simp [Ideal.ofBits, Ideal.ieee]

/-- An extended real whose absolute value `max x (−x)` lies below +∞ is a real number: at +∞ and at −∞ the
    absolute value is +∞ itself. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- `all (|x| < +∞)` over an array of any shape: when the conjunction over all axes of the entrywise comparison of
    `|x|` against the broadcast +∞ is the word 1, every entry of `x` is a real number. -/
private theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ValueIdx.ix0 = 1#1)
    (i : S.Idx) : ∃ r : ℝ, x i = (r : EReal) := by
  -- the conjunction is 1, so the comparison is 1 at every index
  have hi := Host.reduce_andi_all _ _ hr hu ValueIdx.ix0 e i
  -- at index i the comparison is that of max (x i) (−x i) against the value of the word 0x7F800000
  have h2 : Ideal.cmp .olt (max (x i : EReal) (-(x i : EReal))) (Ideal.ofBits .f32 0x7F800000#32) = 1#1 := hi
  rw [inf_word] at h2
  -- the comparison's word is the truth value of the strict inequality
  have h3 : BitVec.ofBool (decide (max (x i : EReal) (-(x i : EReal)) < ⊤)) = 1#1 := h2
  have hlt : max (x i : EReal) (-(x i : EReal)) < ⊤ := by
    by_contra hn
    rw [decide_eq_false hn] at h3
    exact absurd h3 (by decide)
  exact real_of_abs_lt_top _ hlt

/-- The precondition's five `all (|x| < +∞)` conjuncts give, for the three arrays the arithmetic's laws need, that every entry is real. -/
theorem real_of_pre [Cert.Pre_finite_inputs.Facts] (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg3) i = (r : EReal))
    ∧ (∀ i, ∃ r : ℝ, m ((c.tc : Thread nD τ).loc main_arg4) i = (r : EReal)) := by
  -- the precondition at device c, read at the one index of its scalar result
  have e := congrFun (h c) ValueIdx.ix0
  dsimp only [Cert.Pre_finite_inputs.fn, Cert.Pre_finite_inputs.fn_part1, andi] at e
  -- a conjunction of five words is 1 exactly when each of the five is
  simp only [IntOp.andi_eq_one] at e
  obtain ⟨⟨⟨⟨h0, -⟩, -⟩, h3⟩, h4⟩ := e
  exact ⟨real_of_all _ _ _ _ h0, real_of_all _ _ _ _ h3, real_of_all _ _ _ _ h4⟩

end Cert.KernelIdeal.Finite

end
-- ==== Proof.lean ====
/-
  Label spreading over a softmax similarity graph: a fused kernel against its jnp reference, equal over the extended reals.

  Per batch, from samples X, weights W, bias β, soft labels and a residual: s = X Wᵀ + β; the Gram matrix s sᵀ with 1e5 taken
  off the diagonal; its row softmax A and the degree d = 1 / (row sums of A + 1e-10); the labels centred over the marked rows;
  then u ↦ d · (Aᵀ u) + d · B₀ six times from 0, the residual added after the third. The kernel accumulates X Wᵀ over three
  chunks of features, writes s sᵀ as s sᵀ + s (s − s)ᵀ + its transpose (the low half of a two-term split, which is 0 once the
  sixteen-bit narrowing is the identity), multiplies by 1 / r where the reference divides by r, takes the degree from
  r · (1 / r) where the reference sums the normalised row, starts from the first iterate and scales Aᵀ u by d afterwards.
  On real samples, weights and bias — which is what the precondition gives — these are one function: s is real, so s − s = 0;
  r is a positive real, so both normalisations and both degrees agree; d is a nonnegative real, so it leaves the sum.

  The frames of the two kernel programs and the kernel's value leg are the generated ones, and the reference's run is the
  generated one; the kernel's run is read in KerRun (over KerReadA/B), the reference's in RefReadA/B, the algebra is in
  Algebra1/2 over Spec, the precondition is decoded in Finite.
-/
import proofs.«422942_j61220463837889_3_alg».proof.Defs
import proofs.«422942_j61220463837889_3_alg».proof.Proof.Gen.Kernel
import proofs.«422942_j61220463837889_3_alg».proof.Proof.Gen.Kernel.Skeleton
import proofs.«422942_j61220463837889_3_alg».proof.Proof.Gen.Kernel.Launch
import proofs.«422942_j61220463837889_3_alg».proof.Proof.Gen.Kernel.Points
import proofs.«422942_j61220463837889_3_alg».proof.Proof.Gen.Kernel.Frame
import proofs.«422942_j61220463837889_3_alg».proof.Proof.Gen.KernelIdeal
import proofs.«422942_j61220463837889_3_alg».proof.Proof.Gen.KernelIdeal.Skeleton
import proofs.«422942_j61220463837889_3_alg».proof.Proof.Gen.KernelIdeal.Launch
import proofs.«422942_j61220463837889_3_alg».proof.Proof.Gen.KernelIdeal.Points
import proofs.«422942_j61220463837889_3_alg».proof.Proof.Gen.KernelIdeal.Frame
import proofs.«422942_j61220463837889_3_alg».proof.Proof.Gen.ReferenceIdeal
import proofs.«422942_j61220463837889_3_alg».proof.Proof.Gen.KernelIdeal.Value
import proofs.«422942_j61220463837889_3_alg».proof.Proof.Gen.ReferenceIdeal.Run
import proofs.«422942_j61220463837889_3_alg».proof.Proof.Gen.Pre_finite_inputs
import proofs.«422942_j61220463837889_3_alg».proof.Proof.Algebra2
import proofs.«422942_j61220463837889_3_alg».proof.Proof.RefReadB
import proofs.«422942_j61220463837889_3_alg».proof.Proof.KerRun
import proofs.«422942_j61220463837889_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.LabelSpread

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening back a value narrowed to sixteen bits is the identity on extended reals. -/
theorem preserves : Cert.preserves_Kernel_KernelIdeal := IdealRules.truncf_extf.statement _ .f32 .bf16

/-- Both runs end, entry (b, l, n), at the spreading on batch `b`: the kernel in its arrangement, the reference in its own,
    of arguments that agree; on the real samples, weights and bias the precondition gives, the two are one function. -/
theorem algebraic : Cert.algebraic_KernelIdeal_ReferenceIdeal := by
  intro m ρ m' ρ' hpre hagree
  refine ⟨fun c => Cert.KernelIdeal.KerRun.outG m c, Cert.KernelIdeal.KerRun.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.RefValue.refTerm (StableHlo.launchContents m' c) = Cert.KernelIdeal.KerRun.outG m c
  obtain ⟨hX, hW, hβ⟩ := Cert.KernelIdeal.Finite.real_of_pre m hpre c
  obtain ⟨a0, a1, a2, a3, a4⟩ := hagree c
  funext i
  obtain ⟨b, l, n, rfl⟩ : ∃ (b : Fin 8) (l : Fin 1024) (n : Fin 64), i = ix3 b l n := ⟨i 0, i 1, i 2, eq_ix3 i⟩
  rw [Cert.ReferenceIdeal.RefValue.refTerm_apply]
  show _ = Cert.KernelIdeal.KerRun.resAt m c b l n
  unfold Cert.KernelIdeal.KerRun.resAt
  rw [kerOut_eq_refOut (Cert.KernelIdeal.KerRun.Xk m c b) (Cert.KernelIdeal.KerRun.Wk m c) (Cert.KernelIdeal.KerRun.βk m c)
    (Cert.KernelIdeal.KerRun.Labk m c b) (Cert.KernelIdeal.KerRun.Predk m c b) (fun l k => hX _) (fun h k => hW _) (fun h => hβ _)]
  have e0 : Cert.ReferenceIdeal.RefValue.Xb (StableHlo.launchContents m' c) b = Cert.KernelIdeal.KerRun.Xk m c b :=
    funext fun l => funext fun k => congrFun a0 _
  have e1 : Cert.ReferenceIdeal.RefValue.Labb (StableHlo.launchContents m' c) b = Cert.KernelIdeal.KerRun.Labk m c b :=
    funext fun l => funext fun k => congrFun a1 _
  have e2 : Cert.ReferenceIdeal.RefValue.Predb (StableHlo.launchContents m' c) b = Cert.KernelIdeal.KerRun.Predk m c b :=
    funext fun l => funext fun k => congrFun a2 _
  have e3 : Cert.ReferenceIdeal.RefValue.Wm (StableHlo.launchContents m' c) = Cert.KernelIdeal.KerRun.Wk m c :=
    funext fun l => funext fun k => congrFun a3 _
  have e4 : Cert.ReferenceIdeal.RefValue.βv (StableHlo.launchContents m' c) = Cert.KernelIdeal.KerRun.βk m c :=
    funext fun l => congrFun a4 _
  rw [e0, e1, e2, e3, e4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
